-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x256 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x128 .f32) (main_arg2 : FVec F S10000x10000 .f32) (main_arg3 : FVec F S128x128 .f32) (main_arg4 : FVec F S128x256 .f32) (main_arg5 : FVec F S128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩
abbrev S8x128 : Shape := ⟨2, ![8, 128]⟩
abbrev S1 : Shape := ⟨1, ![1]⟩
abbrev S200x10000 : Shape := ⟨2, ![200, 10000]⟩
abbrev S200x128 : Shape := ⟨2, ![200, 128]⟩
abbrev S1x128 : Shape := ⟨2, ![1, 128]⟩
abbrev S1000x128 : Shape := ⟨2, ![1000, 128]⟩

abbrev nBuf : Space → Nat
  | .hbm => 23
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S1, .i32⟩
  | .hbm, ⟨16, _⟩ => ⟨S8x128, .f32⟩
  | .hbm, ⟨17, _⟩ => ⟨S_, .i32⟩
  | .hbm, ⟨18, _⟩ => ⟨S1, .i32⟩
  | .hbm, ⟨19, _⟩ => ⟨S8x128, .f32⟩
  | .hbm, ⟨20, _⟩ => ⟨S10000x128, .f32⟩
  | .hbm, ⟨21, _⟩ => ⟨S8x128, .f32⟩
  | .hbm, ⟨22, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S200x128, .f32⟩
  | .local _ .vmem, ⟨5, _⟩ => ⟨S200x128, .f32⟩
  | .local _ .vmem, ⟨6, _⟩ => ⟨S8x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S128x128, .f32⟩
  | .local _ .vmem, ⟨12, _⟩ => ⟨S128x128, .f32⟩
  | .local _ .vmem, ⟨13, _⟩ => ⟨S8x128, .f32⟩
  | .local _ .vmem, ⟨14, _⟩ => ⟨S8x128, .f32⟩
  | .local _ .vmem, ⟨15, _⟩ => ⟨S1000x128, .f32⟩
  | .local _ .vmem, ⟨16, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_c : Ref sig .tc := ⟨.hbm, 14, rfl⟩
abbrev main_call0_v6 : Ref sig .tc := ⟨.hbm, 15, rfl⟩
abbrev main_call0_v7 : Ref sig .tc := ⟨.hbm, 16, rfl⟩
abbrev main_call0_c_0 : Ref sig .tc := ⟨.hbm, 17, rfl⟩
abbrev main_call0_v8 : Ref sig .tc := ⟨.hbm, 18, rfl⟩
abbrev main_call0_v9 : Ref sig .tc := ⟨.hbm, 19, rfl⟩
abbrev main_call0_v10_0 : Ref sig .tc := ⟨.hbm, 20, rfl⟩
abbrev main_call0_v10_1 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x128_S128x128_1_0 : S128x128.Transposes [1, 0] S128x128
  slices_S128x256_S128x128_0_0 : S128x256.Slices ![0, 0] S128x128
  slices_S128x256_S128x128_0_128 : S128x256.Slices ![0, 128] S128x128
  bcast_S_S8x128 : S_.BroadcastsInDim S8x128 (![] : Fin 0 → Fin S8x128.rank)
  bcast_S_S1 : S_.BroadcastsInDim S1 (![] : Fin 0 → Fin S1.rank)
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S200x128_S200x128_0_0 : ∀ a, (![0, 0] : Fin 2 → Nat) a + S200x128.size a ≤ S200x128.size a
  h_S200x128 : 0 < S200x128.numel
  inb_S8x128_S8x128_0_0 : ∀ a, (![0, 0] : Fin 2 → Nat) a + S8x128.size a ≤ S8x128.size a
  h_S8x128 : 0 < S8x128.numel
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reduces_S200x128_S128 : S200x128.Reduces [0] S128
  shapeCasts_S128_S1x128 : S128.ShapeCasts S1x128
  inb_S8x128_S1x128_1_0 : ∀ a, (![1, 0] : Fin 2 → Nat) a + S1x128.size a ≤ S8x128.size a
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  scatter_S8x128_S1_S128_0_0_0_0_wf : ScatterDims.WF S8x128 S1 S128 [0] [0] [0] 0
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def scatter_S8x128_S1_S128_0_0_0_0 : ScatterDims S8x128 S1 S128 where
  updateWindowDims := [0]
  insertedWindowDims := [0]
  scatterDimsToOperandDims := [0]
  indexVectorDim := 0
  wf := scatter_S8x128_S1_S128_0_0_0_0_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg2) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10_0) S200x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v10_0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v10_1) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v9) S8x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S128 : Shape := ⟨1, ![128]⟩
abbrev S_ : Shape := ⟨0, ![]⟩
abbrev S1x128 : Shape := ⟨2, ![1, 128]⟩
abbrev S10000x256 : Shape := ⟨2, ![10000, 256]⟩
abbrev S256x128 : Shape := ⟨2, ![256, 128]⟩

abbrev nBuf : Space → Nat
  | .hbm => 59
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128x256, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S1x128, .f32⟩
  | .hbm, ⟨49, _⟩ => ⟨S10000x128, .f32⟩
  | .hbm, ⟨50, _⟩ => ⟨S10000x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x256, .f32⟩
  | .hbm, ⟨56, _⟩ => ⟨S256x128, .f32⟩
  | .hbm, ⟨57, _⟩ => ⟨S10000x128, .f32⟩
  | .hbm, ⟨58, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩

abbrev nD : Nat := 1
abbrev τ : Topo := Topo.v7x

variable {F : FTy → Type} [FloatOps F]

class Facts₀ : Prop where
  transposes_S128x128_S128x128_1_0 : S128x128.Transposes [1, 0] S128x128
  reducesTo_S10000x128_S128_d0 : S10000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The mathematics both programs compute, stated once over plain index types.

  Inputs: seq_self, seq : [10000,128]; adj : [10000,10000]; W1 : [128,128]; W2 : [128,256]; gamma, beta : [128],
  all extended reals. Both programs compute, for every row r and feature c,
      h r c   = sum_j adj r j * sum_k seq j k * W1 c k                      (the kernel groups it as sum_k (sum_j ..) * W1 c k)
      mean c  = (sum_r h r c) / 10000,   var c = (sum_r (h r c - mean c)^2) / 10000     (the kernel: E[h^2] - mean^2)
      t r c   = tanh ((h r c - mean c) / sqrt (var c + eps) * gamma c + beta c)         (the kernel: h * scale + shift)
      out r c = tanh (sum_{k < 256} cat r k * W2 c k),  cat = [seq_self | t]             (the kernel: two sums of 128)
  `kernelSpec` follows the kernel's grouping literally, `refSpec` the reference's; `Algebra.lean` proves them equal
  on finite inputs.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev A2 (n k : Nat) : Type := (⟨2, ![n, k]⟩ : Shape).Idx → EReal
/-- A rank-1 array of extended reals. -/
abbrev A1 (n : Nat) : Type := (⟨1, ![n]⟩ : Shape).Idx → EReal
/-- A [10000,128] array by coordinates. -/
abbrev M : Type := Fin 10000 → Fin 128 → EReal

/-- The batch-norm epsilon, the f32 word both programs carry. -/
def eps : EReal := Ideal.ofBits .f32 0x3727C5AC#32
/-- The f32 zero word (a reduction's initial value). -/
def zero : EReal := Ideal.ofBits .f32 0x00000000#32
/-- The f32 word of 10000.0 (the reference's divisor). -/
def tenK : EReal := Ideal.ofBits .f32 0x461C4000#32
/-- The kernel's named reciprocal, exactly 1/10000. -/
def invN : EReal := ((1 / 10000 : ℝ) : EReal)

/-- Row `r` of row block `t` (50 blocks of 200 rows). -/
def row (t : Fin 50) (r : Fin 200) : Fin 10000 := ⟨200 * t.val + r.val, by have := t.isLt; have := r.isLt; omega⟩
/-- Column `128 + k` of W2: the half applied to the activations. -/
def hi (k : Fin 128) : Fin 256 := ⟨128 + k.val, by have := k.isLt; omega⟩
/-- Column `k` of W2: the half applied to seq_self. -/
def lo (k : Fin 128) : Fin 256 := ⟨k.val, by have := k.isLt; omega⟩

/-! ## The kernel's grouping -/

/-- (adj @ seq) @ W1ᵀ. -/
def hK (adj : A2 10000 10000) (seq : A2 10000 128) (w1 : A2 128 128) : M := fun r c =>
  ∑ k : Fin 128, (∑ j : Fin 10000, adj (ix2 r j) * seq (ix2 j k)) * w1 (ix2 c k)
/-- Column sums, block by block. -/
def sumK (h : M) (c : Fin 128) : EReal := ∑ t : Fin 50, ∑ r : Fin 200, h (row t r) c
/-- Column sums of squares, block by block. -/
def sqsumK (h : M) (c : Fin 128) : EReal := ∑ t : Fin 50, ∑ r : Fin 200, h (row t r) c * h (row t r) c
def meanK (h : M) (c : Fin 128) : EReal := sumK h c * invN
def varK (h : M) (c : Fin 128) : EReal := sqsumK h c * invN - meanK h c * meanK h c
def scaleK (h : M) (gamma : A1 128) (c : Fin 128) : EReal := gamma (ix1 c) * Ideal.rsqrt (varK h c + eps)
def shiftK (h : M) (gamma beta : A1 128) (c : Fin 128) : EReal := beta (ix1 c) - meanK h c * scaleK h gamma c
/-- tanh of the normalised h. -/
def actK (h : M) (gamma beta : A1 128) : M := fun r c =>
  Ideal.tanh (h r c * scaleK h gamma c + shiftK h gamma beta c)
/-- tanh (seq_self @ W2[:, :128]ᵀ + t @ W2[:, 128:]ᵀ). -/
def outK (self : A2 10000 128) (w2 : A2 128 256) (t : M) : M := fun r c =>
  Ideal.tanh ((∑ k : Fin 128, self (ix2 r k) * w2 (ix2 c (lo k))) + (∑ k : Fin 128, t r k * w2 (ix2 c (hi k))))

/-- What the kernel's result array holds. -/
def kernelSpec (self seq : A2 10000 128) (adj : A2 10000 10000) (w1 : A2 128 128) (w2 : A2 128 256) (gamma beta : A1 128) :
    A2 10000 128 := fun i =>
  outK self w2 (actK (hK adj seq w1) gamma beta) (i 0) (i 1)

/-! ## The reference's grouping -/

/-- adj @ (seq @ W1ᵀ). -/
def hR (adj : A2 10000 10000) (seq : A2 10000 128) (w1 : A2 128 128) : M := fun r c =>
  ∑ j : Fin 10000, adj (ix2 r j) * ∑ k : Fin 128, seq (ix2 j k) * w1 (ix2 c k)
/-- jnp.mean over rows: (0 + sum) / 10000. -/
def meanR (h : M) (c : Fin 128) : EReal := Ideal.div (zero + ∑ r : Fin 10000, h r c) tenK
/-- jnp.var's normaliser: 10000 - float(ddof), ddof = 0. -/
def cntR : EReal := tenK - (((0#32 : BitVec 32).toInt : ℝ) : EReal)
/-- jnp.var over rows: where(cnt > 0, (0 + sum (h - mean)^2) / cnt, nan). -/
def varR (h : M) (c : Fin 128) : EReal :=
  Scalar.select (Ideal.cmp .ogt cntR zero)
    (Ideal.div (zero + ∑ r : Fin 10000, (h r c - meanR h c) * (h r c - meanR h c)) cntR)
    (Ideal.ofBits .f32 0x7FC00000#32)
/-- tanh ((h - mean) / sqrt (var + eps) * gamma + beta). -/
def actR (h : M) (gamma beta : A1 128) : M := fun r c =>
  Ideal.tanh (Ideal.div (h r c - meanR h c) (Ideal.sqrt (varR h c + eps)) * gamma (ix1 c) + beta (ix1 c))
/-- [seq_self | t] at column k. -/
def catR (self : A2 10000 128) (t : M) (r : Fin 10000) (k : Fin 256) : EReal :=
  if h : k.val < 128 then self (ix2 r ⟨k.val, h⟩) else t r ⟨k.val - 128, by have := k.isLt; omega⟩
/-- tanh (cat @ W2ᵀ). -/
def outR (self : A2 10000 128) (w2 : A2 128 256) (t : M) : M := fun r c =>
  Ideal.tanh (∑ k : Fin 256, catR self t r k * w2 (ix2 c k))

/-- What the reference's result array holds. -/
def refSpec (self seq : A2 10000 128) (adj : A2 10000 10000) (w1 : A2 128 128) (w2 : A2 128 256) (gamma beta : A1 128) :
    A2 10000 128 := fun i =>
  outR self w2 (actR (hR adj seq w1) gamma beta) (i 0) (i 1)

/-! ## The two kernel regions, each as a function of the arrays it is launched on -/

/-- The first region's matrix output at row `r`, column `c`: (adj @ seq) @ w1t. -/
def mmAt (adj : A2 10000 10000) (seq : A2 10000 128) (w1t : A2 128 128) (r : Fin 10000) (c : Fin 128) : EReal :=
  ∑ k : Fin 128, (∑ j : Fin 10000, adj (ix2 r j) * seq (ix2 j k)) * w1t (ix2 k c)
/-- The first region's matrix output as an array. -/
def mm (adj : A2 10000 10000) (seq : A2 10000 128) (w1t : A2 128 128) : A2 10000 128 := fun i => mmAt adj seq w1t (i 0) (i 1)

/-- The second region reads the statistics array `st` (row 0: column sums, row 1: column sums of squares) and the
    array `gb` (row 0: gamma, row 1: beta). -/
def bnMean (st : A2 8 128) (k : Fin 128) : EReal := st (ix2 (0 : Fin 8) k) * invN
def bnVar (st : A2 8 128) (k : Fin 128) : EReal := st (ix2 (1 : Fin 8) k) * invN - bnMean st k * bnMean st k
def bnScale (st gb : A2 8 128) (k : Fin 128) : EReal := gb (ix2 (0 : Fin 8) k) * Ideal.rsqrt (bnVar st k + eps)
def bnShift (st gb : A2 8 128) (k : Fin 128) : EReal := gb (ix2 (1 : Fin 8) k) - bnMean st k * bnScale st gb k
/-- The second region's output at row `r`, column `c`. -/
def bnAt (h self : A2 10000 128) (w2at w2bt : A2 128 128) (st gb : A2 8 128) (r : Fin 10000) (c : Fin 128) : EReal :=
  Ideal.tanh ((∑ k : Fin 128, self (ix2 r k) * w2at (ix2 k c))
    + ∑ k : Fin 128, Ideal.tanh (h (ix2 r k) * bnScale st gb k + bnShift st gb k) * w2bt (ix2 k c))
/-- The second region's output as an array. -/
def bn (h self : A2 10000 128) (w2at w2bt : A2 128 128) (st gb : A2 8 128) : A2 10000 128 :=
  fun i => bnAt h self w2at w2bt st gb (i 0) (i 1)

/-- Every entry is a real number. -/
def Finite {ι : Type} (x : ι → EReal) : Prop := ∀ i, ∃ r : ℝ, x i = (r : EReal)

end Cert.Spec

end
-- ==== Proof.Algebra.lean ====
/-
  The two groupings of Spec.lean are one function on finite inputs.
-/
import proofs.«131860_g61323543053001_cont_9to1c4b_809_4_alg».proof.Proof.Spec

noncomputable section

open scoped BigOperators

namespace Cert.Spec

open Idealize.ShloMosaic Idealize.ShloMosaic.ValueIdx

/-! ## Real numbers inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The zero word denotes 0. -/
theorem zero_eq : zero = 0 := by
  simp [zero, Ideal.ofBits, Ideal.ieee]

/-- The divisor word denotes the real 10000. -/
theorem tenK_eq : tenK = ((10000 : ℝ) : EReal) := by
  simp [tenK, Ideal.ofBits, Ideal.ieee, -EReal.coe_mul]; norm_num

/-- The epsilon word denotes a positive real. -/
theorem eps_eq : ∃ e : ℝ, 0 < e ∧ eps = (e : EReal) := by
  simp [eps, Ideal.ofBits, Ideal.ieee, -EReal.coe_mul]

/-- The variance's normaliser is 10000 - 0 = 10000. -/
theorem cntR_eq : cntR = ((10000 : ℝ) : EReal) := by
  rw [cntR, tenK_eq, ← EReal.coe_sub]; simp

/-- The normaliser is positive, so the guard of the variance holds. -/
theorem cmp_cntR : Ideal.cmp .ogt cntR zero = 1#1 := by
  rw [cntR_eq, zero_eq]
  have h : (0 : EReal) < ((10000 : ℝ) : EReal) := by exact_mod_cast (by norm_num : (0 : ℝ) < 10000)
  simp [Ideal.cmp, h]

/-! ## Step 1: the two groupings of the double matrix product -/

/-- sum_k (sum_j a j * s j k) * w k = sum_j a j * sum_k s j k * w k over the reals. -/
theorem real_assoc {ι κ : Type} [Fintype ι] [Fintype κ] (a : ι → ℝ) (s : ι → κ → ℝ) (w : κ → ℝ) :
    ∑ k, (∑ j, a j * s j k) * w k = ∑ j, a j * ∑ k, s j k * w k := by
  simp only [Finset.sum_mul, Finset.mul_sum]
  rw [Finset.sum_comm]
  exact Finset.sum_congr rfl fun j _ => Finset.sum_congr rfl fun k _ => mul_assoc _ _ _

section Product
variable (adj : A2 10000 10000) (seq : A2 10000 128) (w1 : A2 128 128)
variable (A : (⟨2, ![10000, 10000]⟩ : Shape).Idx → ℝ) (S : (⟨2, ![10000, 128]⟩ : Shape).Idx → ℝ)
  (W : (⟨2, ![128, 128]⟩ : Shape).Idx → ℝ)

/-- The reference's grouping on real entries is the coercion of the real double sum. -/
theorem hR_coe (hA : ∀ i, adj i = (A i : EReal)) (hS : ∀ i, seq i = (S i : EReal)) (hW : ∀ i, w1 i = (W i : EReal))
    (r : Fin 10000) (c : Fin 128) :
    hR adj seq w1 r c = ((∑ j, A (ix2 r j) * ∑ k, S (ix2 j k) * W (ix2 c k) : ℝ) : EReal) := by
  simp only [hR, hA, hS, hW, ← EReal.coe_mul, ← coe_sum]

/-- The kernel's grouping on real entries is the coercion of the same real double sum. -/
theorem hK_coe (hA : ∀ i, adj i = (A i : EReal)) (hS : ∀ i, seq i = (S i : EReal)) (hW : ∀ i, w1 i = (W i : EReal))
    (r : Fin 10000) (c : Fin 128) :
    hK adj seq w1 r c = ((∑ j, A (ix2 r j) * ∑ k, S (ix2 j k) * W (ix2 c k) : ℝ) : EReal) := by
  simp only [hK, hA, hS, hW, ← EReal.coe_mul, ← coe_sum]
  rw [real_assoc (fun j => A (ix2 r j)) (fun j k => S (ix2 j k)) (fun k => W (ix2 c k))]

end Product

/-! ## Step 2: a sum taken block by block is the plain sum -/

/-- 50 blocks of 200 rows enumerate the 10000 rows once each. -/
theorem sum_blocks {N : Type} [AddCommMonoid N] (f : Fin 10000 → N) :
    ∑ t : Fin 50, ∑ r : Fin 200, f (row t r) = ∑ r : Fin 10000, f r := by
  rw [← Fintype.sum_prod_type' (fun t r => f (row t r))]
  refine Fintype.sum_equiv (finProdFinEquiv : Fin 50 × Fin 200 ≃ Fin (50 * 200)) _ _ fun x => ?_
  congr 1
  apply Fin.ext
  simp only [row, finProdFinEquiv, Equiv.coe_fn_mk]
  omega

/-! ## Steps 3 and 4: mean and variance of a real matrix -/

/-- (1/n) sum (f - m)^2 = (1/n) sum f^2 - m^2 with m = (1/n) sum f, n the number of terms. -/
theorem var_identity {ι : Type} [Fintype ι] (f : ι → ℝ) (n : ℝ) (hn : (Fintype.card ι : ℝ) = n) (hn0 : n ≠ 0) :
    (∑ r, (f r - (∑ r, f r) * (1 / n)) * (f r - (∑ r, f r) * (1 / n))) * (1 / n)
      = (∑ r, f r * f r) * (1 / n) - (∑ r, f r) * (1 / n) * ((∑ r, f r) * (1 / n)) := by
  have h : ∀ r, (f r - (∑ r, f r) * (1 / n)) * (f r - (∑ r, f r) * (1 / n))
      = f r * f r - 2 * ((∑ r, f r) * (1 / n)) * f r + (∑ r, f r) * (1 / n) * ((∑ r, f r) * (1 / n)) := fun r => by ring
  simp only [h, Finset.sum_add_distrib, Finset.sum_sub_distrib, ← Finset.mul_sum, Finset.sum_const, Finset.card_univ,
    nsmul_eq_mul, hn]
  field_simp
  ring

section Stats
variable (H : Fin 10000 → Fin 128 → ℝ)

/-- The real column mean. -/
def mu (c : Fin 128) : ℝ := (∑ r, H r c) * (1 / 10000)
/-- The real column variance, in the centred form. -/
def var (c : Fin 128) : ℝ := (∑ r, (H r c - mu H c) * (H r c - mu H c)) * (1 / 10000)

/-- The centred form is the mean of squares minus the squared mean. -/
theorem var_eq (c : Fin 128) : var H c = (∑ r, H r c * H r c) * (1 / 10000) - mu H c * mu H c :=
  var_identity (fun r => H r c) 10000 (by simp) (by norm_num)

/-- A mean of squares is not negative. -/
theorem var_nonneg (c : Fin 128) : 0 ≤ var H c :=
  mul_nonneg (Finset.sum_nonneg fun r _ => mul_self_nonneg _) (by norm_num)

theorem meanK_coe (c : Fin 128) : meanK (fun r c => (H r c : EReal)) c = (mu H c : EReal) := by
  simp only [meanK, sumK, invN, mu]
  rw [sum_blocks (fun r => ((H r c : ℝ) : EReal)), ← coe_sum, ← EReal.coe_mul]

theorem meanR_coe (c : Fin 128) : meanR (fun r c => (H r c : EReal)) c = (mu H c : EReal) := by
  simp only [meanR, zero_eq, tenK_eq, zero_add, mu]
  rw [Ideal.div_coe (by norm_num), ← coe_sum, ← EReal.coe_mul]

theorem varK_coe (c : Fin 128) : varK (fun r c => (H r c : EReal)) c = (var H c : EReal) := by
  rw [varK, meanK_coe, var_eq]
  simp only [sqsumK, invN]
  rw [sum_blocks (fun r => ((H r c : ℝ) : EReal) * (H r c : EReal))]
  simp only [← EReal.coe_mul, ← coe_sum, ← EReal.coe_sub]

theorem varR_coe (c : Fin 128) : varR (fun r c => (H r c : EReal)) c = (var H c : EReal) := by
  rw [varR, cmp_cntR, select_one]
  simp only [meanR_coe, zero_eq, cntR_eq, zero_add, var, ← EReal.coe_sub, ← EReal.coe_mul, ← coe_sum]
  rw [Ideal.div_coe (by norm_num), ← EReal.coe_mul]

/-! ## Step 5: the two normalisations agree -/

/-- h * (g / s) + (b - m * (g / s)) = (h - m) / s * g + b, and both sides are real because var + eps > 0. -/
theorem act_eq (gamma beta : A1 128) (G B : (⟨1, ![128]⟩ : Shape).Idx → ℝ)
    (hG : ∀ i, gamma i = (G i : EReal)) (hB : ∀ i, beta i = (B i : EReal)) :
    actK (fun r c => (H r c : EReal)) gamma beta = actR (fun r c => (H r c : EReal)) gamma beta := by
  obtain ⟨e, he, hee⟩ := eps_eq
  funext r c
  have hpos : 0 < var H c + e := add_pos_of_nonneg_of_pos (var_nonneg H c) he
  have hs : Real.sqrt (var H c + e) ≠ 0 := (Real.sqrt_pos.2 hpos).ne'
  have hK : varK (fun r c => (H r c : EReal)) c + eps = ((var H c + e : ℝ) : EReal) := by
    rw [varK_coe, hee, ← EReal.coe_add]
  have hR : varR (fun r c => (H r c : EReal)) c + eps = ((var H c + e : ℝ) : EReal) := by
    rw [varR_coe, hee, ← EReal.coe_add]
  simp only [actK, actR, scaleK, shiftK, hK, hR, meanK_coe, meanR_coe, hG, hB, Ideal.rsqrt_coe, Ideal.sqrt_coe,
    if_neg (not_lt.2 hpos.le), if_neg hpos.ne']
  rw [Ideal.div_coe hs]
  simp only [← EReal.coe_mul, ← EReal.coe_sub, ← EReal.coe_add]
  refine congrArg Ideal.tanh (congrArg Real.toEReal ?_)
  rw [one_div]
  ring

end Stats

/-! ## Step 6: one sum over 256 columns is two sums over 128 -/

/-- The sum over the concatenated row splits at column 128. -/
theorem cat_sum (self : A2 10000 128) (w2 : A2 128 256) (t : M) (r : Fin 10000) (c : Fin 128) :
    ∑ k : Fin 256, catR self t r k * w2 (ix2 c k)
      = (∑ k : Fin 128, self (ix2 r k) * w2 (ix2 c (lo k))) + ∑ k : Fin 128, t r k * w2 (ix2 c (hi k)) := by
  refine (Fin.sum_univ_add (a := 128) (b := 128) (fun k : Fin 256 => catR self t r k * w2 (ix2 c k))).trans ?_
  refine congrArg₂ (· + ·) (Finset.sum_congr rfl fun k _ => ?_) (Finset.sum_congr rfl fun k _ => ?_)
  · have hk : (Fin.castAdd 128 k : Fin 256) = lo k := rfl
    have hc : catR self t r (lo k) = self (ix2 r k) := by
      have hlt : (lo k).val < 128 := k.isLt
      rw [catR, dif_pos hlt]
      rfl
    rw [hk, hc]
  · have hk : (Fin.natAdd 128 k : Fin 256) = hi k := rfl
    have hc : catR self t r (hi k) = t r k := by
      have hge : ¬ (hi k).val < 128 := by simp [hi]
      rw [catR, dif_neg hge]
      congr 1
      apply Fin.ext
      simp [hi]
    rw [hk, hc]

theorem out_eq (self : A2 10000 128) (w2 : A2 128 256) (t : M) : outK self w2 t = outR self w2 t := by
  funext r c
  rw [outK, outR, cat_sum]

/-! ## The two specifications -/

/-- On inputs all of whose entries are real numbers the kernel's grouping and the reference's compute the same array. -/
theorem spec_eq (self seq : A2 10000 128) (adj : A2 10000 10000) (w1 : A2 128 128) (w2 : A2 128 256) (gamma beta : A1 128)
    (hself : Finite self) (hseq : Finite seq) (hadj : Finite adj) (hw1 : Finite w1) (hw2 : Finite w2)
    (hgamma : Finite gamma) (hbeta : Finite beta) :
    kernelSpec self seq adj w1 w2 gamma beta = refSpec self seq adj w1 w2 gamma beta := by
  choose S hS using hseq
  choose A hA using hadj
  choose W hW using hw1
  choose G hG using hgamma
  choose B hB using hbeta
  have hk : hK adj seq w1 = fun r c => ((∑ j, A (ix2 r j) * ∑ k, S (ix2 j k) * W (ix2 c k) : ℝ) : EReal) :=
    funext fun r => funext fun c => hK_coe adj seq w1 A S W hA hS hW r c
  have hr : hR adj seq w1 = fun r c => ((∑ j, A (ix2 r j) * ∑ k, S (ix2 j k) * W (ix2 c k) : ℝ) : EReal) :=
    funext fun r => funext fun c => hR_coe adj seq w1 A S W hA hS hW r c
  funext i
  rw [kernelSpec, refSpec, hk, hr, act_eq _ gamma beta G B hG hB, out_eq]

end Cert.Spec

end
-- ==== Proof.FiniteInputs.lean ====
/-
  The precondition "every float input is finite", read: every entry of every argument array is a real number.
-/
import proofs.«131860_g61323543053001_cont_9to1c4b_809_4_alg».proof.Proof.Spec
import proofs.«131860_g61323543053001_cont_9to1c4b_809_4_alg».proof.Pre_finite_inputs
import proofs.«131860_g61323543053001_cont_9to1c4b_809_4_alg».proof.Proof.Gen.Pre_finite_inputs
import Idealize.ShloMosaic.Lib.ReduceAll

noncomputable section

namespace Cert.FiniteInputs

open Idealize.ShloMosaic Idealize.ShloMosaic.ValueIdx Cert.Spec

/-- The f32 word 0x7F800000 (sign 0, exponent all ones, fraction 0) denotes +∞. -/
theorem inf_word : Ideal.ofBits .f32 0x7F800000#32 = (⊤ : EReal) := by
  simp [Ideal.ofBits, Ideal.ieee]

/-- An ordered less-than comparison whose result word is 1 says the strict inequality holds. -/
theorem lt_of_cmp_olt {a b : EReal} (h : Ideal.cmp .olt a b = 1#1) : a < b := by
  by_contra hn
  simp [Ideal.cmp, hn] at h

/-- An extended real whose absolute value max x (-x) is below +∞ is a real number:
    at -∞ and at +∞ the maximum is +∞ itself. -/
theorem real_of_abs_lt_top (x : EReal) (h : max x (-x) < ⊤) : ∃ r : ℝ, x = (r : EReal) := by
  induction x using EReal.rec with
  | bot => simp at h
  | top => simp at h
  | coe r => exact ⟨r, rfl⟩

/-- The rank-0 shape has a single index. -/
instance : Subsingleton Cert.Pre_finite_inputs.S_.Idx := ⟨fun a b => funext fun d => d.elim0⟩

/-- Over any shape: if the conjunction over all entries of (|x| < +∞), folded by `and` from 1 down to a
    single word, is 1, then every entry of x is a real number. Each entry's comparison word is 1, the
    bound is +∞, and an extended real with |x| < +∞ is real. -/
theorem finite_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
      (cmpf (F := Ideal) (φ := .f32) .olt (Host.absf (F := Ideal) (φ := .f32) x)
        (broadcastInDim s ![] hb (constant (F := Ideal) Cert.Pre_finite_inputs.S_ .f32 0x7F800000#32)))
      (constantI Cert.Pre_finite_inputs.S_ 1 1#1) hr hu ix0 = 1#1) : Finite x := by
  intro i
  have hi := Host.reduce_andi_all _ _ hr hu ix0 e i
  have hi' : Ideal.cmp .olt (max (x i) (-(x i))) (Ideal.ofBits .f32 0x7F800000#32) = 1#1 := hi
  rw [inf_word] at hi'
  exact real_of_abs_lt_top _ (lt_of_cmp_olt hi')

/-- If the printed precondition evaluates to all ones at the ideal instance, every argument array is finite. -/
theorem of_pre [Cert.Pre_finite_inputs.Facts] (a0 a1 : A2 10000 128) (a2 : A2 10000 10000) (a3 : A2 128 128) (a4 : A2 128 256) (a5 a6 : A1 128)
    (h : Cert.Pre_finite_inputs.fn (F := Ideal) a0 a1 a2 a3 a4 a5 a6 = (fun _ => 1#1)) :
    Finite a0 ∧ Finite a1 ∧ Finite a2 ∧ Finite a3 ∧ Finite a4 ∧ Finite a5 ∧ Finite a6 := by
  -- the single result word is the `and` of the seven per-array conjunctions; it is 1, so each of them is
  have h0 := congrFun h ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨finite_of_all a0 _ _ _ e0, finite_of_all a1 _ _ _ e1, finite_of_all a2 _ _ _ e2,
    finite_of_all a3 _ _ _ e3, finite_of_all a4 _ _ _ e4, finite_of_all a5 _ _ _ e5, finite_of_all a6 _ _ _ e6⟩

end Cert.FiniteInputs

end
-- ==== Proof.LibScatterSet.lean ====
/-
  Reading a "set" scatter at an index.

  A scatter whose body returns the update (`fun _ b => b`) and whose updates all land inside the operand at
  pairwise distinct places is a plain overwrite: the result holds the update's element at every landing
  place and the operand's element everywhere else. The first part proves this for any dimension numbers;
  the second part computes the landing places of the block writes `x.at[i].set(w)`, `x.at[i, :, a:b].set(w)` and their relatives.
-/
import Idealize.ShloMosaic.PureOps.ShapeOps
import Idealize.ShloMosaic.Lib.ValueIdx

namespace Idealize.ShloMosaic

section ScatterSet
variable {s si u : Shape} {w : Nat} {α : Type}

/-- One step of the overwrite: the element at the landing place `g j` of update index `j` (the `n`-th in
    row-major order) becomes the update's element, every other element stays. -/
def Host.setStep (upd : u.Idx → α) (g : u.Idx → s.Idx) (r : s.Idx → α) (n : Fin u.numel) : s.Idx → α :=
  fun i' => if i' = g (u.rowMajor.symm n) then upd (u.rowMajor.symm n) else r i'

/-- When every update index `j` lands inside the operand, at `g j`, the scatter whose body returns the update
    is the left fold of the overwrite steps over the update indices in row-major order. -/
theorem Host.scatter_set_eq_foldl (d : ScatterDims s si u) (x : s.Idx → α) (idx : IVec si w) (upd : u.Idx → α)
    (g : u.Idx → s.Idx) (hg : ∀ j, d.resultIdx? j idx = some (g j)) :
    Host.scatter d (fun _ b => b) x idx upd = (List.finRange u.numel).foldl (Host.setStep upd g) x := by
  unfold Host.scatter
  congr 1
  funext r n
  simp only [hg]
  rfl

/-- Overwrite steps whose landing places all differ from `i` leave the element at `i` alone. -/
theorem Host.foldl_setStep_of_ne (upd : u.Idx → α) (g : u.Idx → s.Idx) (i : s.Idx) :
    ∀ (L : List (Fin u.numel)) (x : s.Idx → α), (∀ n ∈ L, g (u.rowMajor.symm n) ≠ i) →
      L.foldl (Host.setStep upd g) x i = x i
  | [], _, _ => rfl
  | n :: L, x, h => by
    rw [List.foldl_cons, Host.foldl_setStep_of_ne upd g i L _ fun m hm => h m (List.mem_cons_of_mem _ hm)]
    have hn : i ≠ g (u.rowMajor.symm n) := fun e => h n List.mem_cons_self e.symm
    simp only [Host.setStep, if_neg hn]

/-- Overwrite steps over a list without repetitions, at an injective landing map: the element at the landing
    place of a listed update index is that update's element (the one step that writes there is the only one,
    so nothing after it touches the place). -/
theorem Host.foldl_setStep_of_mem (upd : u.Idx → α) (g : u.Idx → s.Idx) (hinj : Function.Injective g)
    (n₀ : Fin u.numel) :
    ∀ (L : List (Fin u.numel)) (x : s.Idx → α), L.Nodup → n₀ ∈ L →
      L.foldl (Host.setStep upd g) x (g (u.rowMajor.symm n₀)) = upd (u.rowMajor.symm n₀)
  | [], _, _, h => absurd h List.not_mem_nil
  | n :: L, x, hnd, h => by
    rw [List.foldl_cons]
    rcases List.mem_cons.1 h with rfl | hm
    · have hne : ∀ m ∈ L, g (u.rowMajor.symm m) ≠ g (u.rowMajor.symm n₀) := fun m hm e => by
        have hmn : m = n₀ := u.rowMajor.symm.injective (hinj e)
        exact (List.nodup_cons.1 hnd).1 (hmn ▸ hm)
      rw [Host.foldl_setStep_of_ne upd g _ L _ hne]
      simp only [Host.setStep, if_pos]
    · exact Host.foldl_setStep_of_mem upd g hinj n₀ L _ (List.nodup_cons.1 hnd).2 hm

variable (d : ScatterDims s si u) (x : s.Idx → α) (idx : IVec si w) (upd : u.Idx → α) (g : u.Idx → s.Idx)

/-- A scatter whose body returns the update, every update index `j` landing inside the operand at `g j` with
    `g` injective: at the landing place of `j` the result is the update's element at `j`. -/
theorem Host.scatter_set_apply_of_eq (hg : ∀ j, d.resultIdx? j idx = some (g j)) (hinj : Function.Injective g)
    (j : u.Idx) :
    Host.scatter d (fun _ b => b) x idx upd (g j) = upd j := by
  rw [Host.scatter_set_eq_foldl d x idx upd g hg]
  have := Host.foldl_setStep_of_mem upd g hinj (u.rowMajor j) (List.finRange u.numel) x (List.nodup_finRange _)
    (List.mem_finRange _)
  simpa only [Equiv.symm_apply_apply] using this

/-- The same scatter away from every landing place: the result is the operand's element. -/
theorem Host.scatter_set_apply_of_ne (hg : ∀ j, d.resultIdx? j idx = some (g j)) (i : s.Idx) (hi : ∀ j, g j ≠ i) :
    Host.scatter d (fun _ b => b) x idx upd i = x i := by
  rw [Host.scatter_set_eq_foldl d x idx upd g hg]
  exact Host.foldl_setStep_of_ne upd g i _ x fun n _ => hi _

end ScatterSet

/-! ## Block writes: one start index, a window on the trailing axes

  `x.at[i0, :, k0:k0+W].set(w)` and its relatives are scatters with ONE start index (the index array is the
  index vector itself), the leading operand axis inserted, and the update's axes the window. Each lemma below
  computes where update index `j` lands for one such set of dimension numbers, over arbitrary extents, and reads
  the scatter at an index through the two theorems above. -/

section BlockWrites
open ValueIdx

/-- The row write `x.at[i0].set(w)` of an `A×B` array: update index `j` lands at row `i0` (the start read off the
    one index word), column `j`. -/
theorem rowWrite_resultIdx {A B : ℕ}
    (wf : ScatterDims.WF ⟨2, ![A, B]⟩ ⟨1, ![1]⟩ ⟨1, ![B]⟩ [0] [0] [0] 0) (idx : IVec ⟨1, ![1]⟩ 32)
    (i0 : ℕ) (h0 : (idx (ix1 0)).toInt = i0) (hi : i0 < A) (j : (⟨1, ![B]⟩ : Shape).Idx) :
    (⟨[0], [0], [0], 0, wf⟩ : ScatterDims ⟨2, ![A, B]⟩ ⟨1, ![1]⟩ ⟨1, ![B]⟩).resultIdx? j idx
      = some (ix2 ⟨i0, hi⟩ (j 0)) := by
  have key : ∀ a, (⟨[0], [0], [0], 0, wf⟩ : ScatterDims ⟨2, ![A, B]⟩ ⟨1, ![1]⟩ ⟨1, ![B]⟩).start j idx a
        + (⟨[0], [0], [0], 0, wf⟩ : ScatterDims ⟨2, ![A, B]⟩ ⟨1, ![1]⟩ ⟨1, ![B]⟩).window j a
      = (((ix2 ⟨i0, hi⟩ (j 0) : (⟨2, ![A, B]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (0 : ℤ) + (((j 0).val : ℕ) : ℤ) = ((j 0).val : ℤ)
      rw [zero_add]
  unfold ScatterDims.resultIdx?
  rw [dif_pos fun a => by
    rw [key a]; exact ⟨Int.natCast_nonneg _, by exact_mod_cast
      ((ix2 ⟨i0, hi⟩ (j 0) : (⟨2, ![A, B]⟩ : Shape).Idx) a).isLt⟩]
  congr 1; funext a; apply Fin.ext
  simp only [key a, Int.toNat_natCast]
  rfl

/-- The row write read at an index: row `i0` holds the update, every other row the operand. -/
theorem Host.scatter_rowWrite_apply {A B : ℕ} {α : Type}
    (wf : ScatterDims.WF ⟨2, ![A, B]⟩ ⟨1, ![1]⟩ ⟨1, ![B]⟩ [0] [0] [0] 0)
    (x : (⟨2, ![A, B]⟩ : Shape).Idx → α) (idx : IVec ⟨1, ![1]⟩ 32) (upd : (⟨1, ![B]⟩ : Shape).Idx → α) (i0 : ℕ)
    (h0 : (idx (ix1 0)).toInt = i0) (hi : i0 < A) (a : Fin A) (h : Fin B) :
    Host.scatter (⟨[0], [0], [0], 0, wf⟩ : ScatterDims ⟨2, ![A, B]⟩ ⟨1, ![1]⟩ ⟨1, ![B]⟩) (fun _ b => b) x idx upd
        (ix2 a h)
      = if a.val = i0 then upd (ix1 h) else x (ix2 a h) := by
  have hg := rowWrite_resultIdx wf idx i0 h0 hi
  have hinj : Function.Injective (fun j : (⟨1, ![B]⟩ : Shape).Idx =>
      (ix2 ⟨i0, hi⟩ (j 0) : (⟨2, ![A, B]⟩ : Shape).Idx)) := by
    intro j j' e
    have e1 : j 0 = j' 0 := congrFun e 1
    funext b; match b with | ⟨0, _⟩ => exact e1
  split_ifs with hc
  · have ha : a = ⟨i0, hi⟩ := Fin.ext hc
    subst ha
    exact Host.scatter_set_apply_of_eq _ x idx upd _ hg hinj (ix1 h)
  · exact Host.scatter_set_apply_of_ne _ x idx upd _ hg _ fun j e =>
      hc (congrArg Fin.val (congrFun e 0)).symm

/-- The block write `x.at[i0, :, k0:k0+W].set(w)` of an `A×B×N` array: update index `j` lands at slab `i0`, row
    `j 0`, column `k0 + j 1` (the two starts read off the two index words; the window of `W` columns stays inside). -/
theorem colsWrite_resultIdx {A B N W : ℕ}
    (wf : ScatterDims.WF ⟨3, ![A, B, N]⟩ ⟨1, ![2]⟩ ⟨2, ![B, W]⟩ [0, 1] [0] [0, 2] 0) (idx : IVec ⟨1, ![2]⟩ 32)
    (i0 k0 : ℕ) (h0 : (idx (ix1 0)).toInt = i0) (h1 : (idx (ix1 1)).toInt = k0) (hi : i0 < A) (hk : k0 + W ≤ N)
    (j : (⟨2, ![B, W]⟩ : Shape).Idx) :
    (⟨[0, 1], [0], [0, 2], 0, wf⟩ : ScatterDims ⟨3, ![A, B, N]⟩ ⟨1, ![2]⟩ ⟨2, ![B, W]⟩).resultIdx? j idx
      = some (ix3 ⟨i0, hi⟩ (j 0) ⟨k0 + (j 1).val, by have := idx2_lt1 j; omega⟩) := by
  have key : ∀ a, (⟨[0, 1], [0], [0, 2], 0, wf⟩ : ScatterDims ⟨3, ![A, B, N]⟩ ⟨1, ![2]⟩ ⟨2, ![B, W]⟩).start j idx a
        + (⟨[0, 1], [0], [0, 2], 0, wf⟩ : ScatterDims ⟨3, ![A, B, N]⟩ ⟨1, ![2]⟩ ⟨2, ![B, W]⟩).window j a
      = (((ix3 ⟨i0, hi⟩ (j 0) ⟨k0 + (j 1).val, by have := idx2_lt1 j; omega⟩ :
          (⟨3, ![A, B, N]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (0 : ℤ) + (((j 0).val : ℕ) : ℤ) = ((j 0).val : ℤ)
      rw [zero_add]
    | ⟨2, _⟩ =>
      show (idx _).toInt + (((j 1).val : ℕ) : ℤ) = ((k0 + (j 1).val : ℕ) : ℤ)
      rw [Nat.cast_add, ← h1]
      congr 3; funext b; match b with | ⟨0, _⟩ => rfl
  unfold ScatterDims.resultIdx?
  rw [dif_pos fun a => by
    rw [key a]; exact ⟨Int.natCast_nonneg _, by exact_mod_cast
      ((ix3 ⟨i0, hi⟩ (j 0) ⟨k0 + (j 1).val, by have := idx2_lt1 j; omega⟩ : (⟨3, ![A, B, N]⟩ : Shape).Idx) a).isLt⟩]
  congr 1; funext a; apply Fin.ext
  simp only [key a, Int.toNat_natCast]
  rfl

/-- That block write read at an index: slab `i0`, columns `k0 ≤ k < k0 + W` hold the update, the rest the operand. -/
theorem Host.scatter_colsWrite_apply {A B N W : ℕ} {α : Type}
    (wf : ScatterDims.WF ⟨3, ![A, B, N]⟩ ⟨1, ![2]⟩ ⟨2, ![B, W]⟩ [0, 1] [0] [0, 2] 0)
    (x : (⟨3, ![A, B, N]⟩ : Shape).Idx → α) (idx : IVec ⟨1, ![2]⟩ 32) (upd : (⟨2, ![B, W]⟩ : Shape).Idx → α)
    (i0 k0 : ℕ) (h0 : (idx (ix1 0)).toInt = i0) (h1 : (idx (ix1 1)).toInt = k0) (hi : i0 < A) (hk : k0 + W ≤ N)
    (a : Fin A) (h : Fin B) (k : Fin N) :
    Host.scatter (⟨[0, 1], [0], [0, 2], 0, wf⟩ : ScatterDims ⟨3, ![A, B, N]⟩ ⟨1, ![2]⟩ ⟨2, ![B, W]⟩) (fun _ b => b)
        x idx upd (ix3 a h k)
      = if hc : a.val = i0 ∧ k0 ≤ k.val ∧ k.val < k0 + W then upd (ix2 h ⟨k.val - k0, by omega⟩)
        else x (ix3 a h k) := by
  have hg := colsWrite_resultIdx wf idx i0 k0 h0 h1 hi hk
  have hinj : Function.Injective (fun j : (⟨2, ![B, W]⟩ : Shape).Idx =>
      (ix3 ⟨i0, hi⟩ (j 0) ⟨k0 + (j 1).val, by have := idx2_lt1 j; omega⟩ : (⟨3, ![A, B, N]⟩ : Shape).Idx)) := by
    intro j j' e
    have e1 : j 0 = j' 0 := congrFun e 1
    have e2 : k0 + (j 1).val = k0 + (j' 1).val := congrArg Fin.val (congrFun e 2)
    rw [eq_ix2 j, eq_ix2 j', e1, Fin.ext (Nat.add_left_cancel e2)]
  split_ifs with hc
  · have hk' : (ix3 a h k : (⟨3, ![A, B, N]⟩ : Shape).Idx)
        = (fun j : (⟨2, ![B, W]⟩ : Shape).Idx =>
            (ix3 ⟨i0, hi⟩ (j 0) ⟨k0 + (j 1).val, by have := idx2_lt1 j; omega⟩ : (⟨3, ![A, B, N]⟩ : Shape).Idx))
            (ix2 h ⟨k.val - k0, by omega⟩) := by
      funext b
      match b with
      | ⟨0, _⟩ => exact Fin.ext hc.1
      | ⟨1, _⟩ => rfl
      | ⟨2, _⟩ => exact Fin.ext (show k.val = k0 + (k.val - k0) by omega)
    rw [hk']
    exact Host.scatter_set_apply_of_eq _ x idx upd _ hg hinj _
  · refine Host.scatter_set_apply_of_ne _ x idx upd _ hg _ fun j e => hc ?_
    have e0 : i0 = a.val := congrArg Fin.val (congrFun e 0)
    have e2 : k0 + (j 1).val = k.val := congrArg Fin.val (congrFun e 2)
    have := idx2_lt1 j
    omega

/-- The block write `x.at[i0, j0:j0+W, :].set(w)` of an `A×M×K` array: update index `j` lands at slab `i0`, row
    `j0 + j 0`, column `j 1` (the two starts read off the two index words; the window of `W` rows stays inside). -/
theorem rowsWrite_resultIdx {A M K W : ℕ}
    (wf : ScatterDims.WF ⟨3, ![A, M, K]⟩ ⟨1, ![2]⟩ ⟨2, ![W, K]⟩ [0, 1] [0] [0, 1] 0) (idx : IVec ⟨1, ![2]⟩ 32)
    (i0 j0 : ℕ) (h0 : (idx (ix1 0)).toInt = i0) (h1 : (idx (ix1 1)).toInt = j0) (hi : i0 < A) (hj : j0 + W ≤ M)
    (j : (⟨2, ![W, K]⟩ : Shape).Idx) :
    (⟨[0, 1], [0], [0, 1], 0, wf⟩ : ScatterDims ⟨3, ![A, M, K]⟩ ⟨1, ![2]⟩ ⟨2, ![W, K]⟩).resultIdx? j idx
      = some (ix3 ⟨i0, hi⟩ ⟨j0 + (j 0).val, by have := idx2_lt0 j; omega⟩ (j 1)) := by
  have key : ∀ a, (⟨[0, 1], [0], [0, 1], 0, wf⟩ : ScatterDims ⟨3, ![A, M, K]⟩ ⟨1, ![2]⟩ ⟨2, ![W, K]⟩).start j idx a
        + (⟨[0, 1], [0], [0, 1], 0, wf⟩ : ScatterDims ⟨3, ![A, M, K]⟩ ⟨1, ![2]⟩ ⟨2, ![W, K]⟩).window j a
      = (((ix3 ⟨i0, hi⟩ ⟨j0 + (j 0).val, by have := idx2_lt0 j; omega⟩ (j 1) :
          (⟨3, ![A, M, K]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (idx _).toInt + (((j 0).val : ℕ) : ℤ) = ((j0 + (j 0).val : ℕ) : ℤ)
      rw [Nat.cast_add, ← h1]
      congr 3; funext b; match b with | ⟨0, _⟩ => rfl
    | ⟨2, _⟩ =>
      show (0 : ℤ) + (((j 1).val : ℕ) : ℤ) = ((j 1).val : ℤ)
      rw [zero_add]
  unfold ScatterDims.resultIdx?
  rw [dif_pos fun a => by
    rw [key a]; exact ⟨Int.natCast_nonneg _, by exact_mod_cast
      ((ix3 ⟨i0, hi⟩ ⟨j0 + (j 0).val, by have := idx2_lt0 j; omega⟩ (j 1) : (⟨3, ![A, M, K]⟩ : Shape).Idx) a).isLt⟩]
  congr 1; funext a; apply Fin.ext
  simp only [key a, Int.toNat_natCast]
  rfl

/-- That block write read at an index: slab `i0`, rows `j0 ≤ m < j0 + W` hold the update, the rest the operand. -/
theorem Host.scatter_rowsWrite_apply {A M K W : ℕ} {α : Type}
    (wf : ScatterDims.WF ⟨3, ![A, M, K]⟩ ⟨1, ![2]⟩ ⟨2, ![W, K]⟩ [0, 1] [0] [0, 1] 0)
    (x : (⟨3, ![A, M, K]⟩ : Shape).Idx → α) (idx : IVec ⟨1, ![2]⟩ 32) (upd : (⟨2, ![W, K]⟩ : Shape).Idx → α)
    (i0 j0 : ℕ) (h0 : (idx (ix1 0)).toInt = i0) (h1 : (idx (ix1 1)).toInt = j0) (hi : i0 < A) (hj : j0 + W ≤ M)
    (a : Fin A) (m : Fin M) (k : Fin K) :
    Host.scatter (⟨[0, 1], [0], [0, 1], 0, wf⟩ : ScatterDims ⟨3, ![A, M, K]⟩ ⟨1, ![2]⟩ ⟨2, ![W, K]⟩) (fun _ b => b)
        x idx upd (ix3 a m k)
      = if hc : a.val = i0 ∧ j0 ≤ m.val ∧ m.val < j0 + W then upd (ix2 ⟨m.val - j0, by omega⟩ k)
        else x (ix3 a m k) := by
  have hg := rowsWrite_resultIdx wf idx i0 j0 h0 h1 hi hj
  have hinj : Function.Injective (fun j : (⟨2, ![W, K]⟩ : Shape).Idx =>
      (ix3 ⟨i0, hi⟩ ⟨j0 + (j 0).val, by have := idx2_lt0 j; omega⟩ (j 1) : (⟨3, ![A, M, K]⟩ : Shape).Idx)) := by
    intro j j' e
    have e1 : j0 + (j 0).val = j0 + (j' 0).val := congrArg Fin.val (congrFun e 1)
    have e2 : j 1 = j' 1 := congrFun e 2
    rw [eq_ix2 j, eq_ix2 j', e2, Fin.ext (Nat.add_left_cancel e1)]
  split_ifs with hc
  · have hm' : (ix3 a m k : (⟨3, ![A, M, K]⟩ : Shape).Idx)
        = (fun j : (⟨2, ![W, K]⟩ : Shape).Idx =>
            (ix3 ⟨i0, hi⟩ ⟨j0 + (j 0).val, by have := idx2_lt0 j; omega⟩ (j 1) : (⟨3, ![A, M, K]⟩ : Shape).Idx))
            (ix2 ⟨m.val - j0, by omega⟩ k) := by
      funext b
      match b with
      | ⟨0, _⟩ => exact Fin.ext hc.1
      | ⟨1, _⟩ => exact Fin.ext (show m.val = j0 + (m.val - j0) by omega)
      | ⟨2, _⟩ => rfl
    rw [hm']
    exact Host.scatter_set_apply_of_eq _ x idx upd _ hg hinj _
  · refine Host.scatter_set_apply_of_ne _ x idx upd _ hg _ fun j e => hc ?_
    have e0 : i0 = a.val := congrArg Fin.val (congrFun e 0)
    have e1 : j0 + (j 0).val = m.val := congrArg Fin.val (congrFun e 1)
    have := idx2_lt0 j
    omega

/-- The segment write `x.at[i0, j0:j0+W].set(w)` of an `A×M` array: update index `j` lands at row `i0`, column
    `j0 + j` (the two starts read off the two index words; the window of `W` columns stays inside). -/
theorem segWrite_resultIdx {A M W : ℕ}
    (wf : ScatterDims.WF ⟨2, ![A, M]⟩ ⟨1, ![2]⟩ ⟨1, ![W]⟩ [0] [0] [0, 1] 0) (idx : IVec ⟨1, ![2]⟩ 32)
    (i0 j0 : ℕ) (h0 : (idx (ix1 0)).toInt = i0) (h1 : (idx (ix1 1)).toInt = j0) (hi : i0 < A) (hj : j0 + W ≤ M)
    (j : (⟨1, ![W]⟩ : Shape).Idx) :
    (⟨[0], [0], [0, 1], 0, wf⟩ : ScatterDims ⟨2, ![A, M]⟩ ⟨1, ![2]⟩ ⟨1, ![W]⟩).resultIdx? j idx
      = some (ix2 ⟨i0, hi⟩ ⟨j0 + (j 0).val, by have : (j 0).val < W := (j 0).isLt; omega⟩) := by
  have key : ∀ a, (⟨[0], [0], [0, 1], 0, wf⟩ : ScatterDims ⟨2, ![A, M]⟩ ⟨1, ![2]⟩ ⟨1, ![W]⟩).start j idx a
        + (⟨[0], [0], [0, 1], 0, wf⟩ : ScatterDims ⟨2, ![A, M]⟩ ⟨1, ![2]⟩ ⟨1, ![W]⟩).window j a
      = (((ix2 ⟨i0, hi⟩ ⟨j0 + (j 0).val, by have : (j 0).val < W := (j 0).isLt; omega⟩ :
          (⟨2, ![A, M]⟩ : Shape).Idx) a).val : ℤ) := by
    intro a
    match a with
    | ⟨0, _⟩ =>
      show (idx _).toInt + ((0 : ℕ) : ℤ) = (i0 : ℤ)
      rw [← h0, Nat.cast_zero, add_zero]
      congr 2; funext b; match b with | ⟨0, _⟩ => rfl
    | ⟨1, _⟩ =>
      show (idx _).toInt + (((j 0).val : ℕ) : ℤ) = ((j0 + (j 0).val : ℕ) : ℤ)
      rw [Nat.cast_add, ← h1]
      congr 3; funext b; match b with | ⟨0, _⟩ => rfl
  unfold ScatterDims.resultIdx?
  rw [dif_pos fun a => by
    rw [key a]; exact ⟨Int.natCast_nonneg _, by exact_mod_cast
      ((ix2 ⟨i0, hi⟩ ⟨j0 + (j 0).val, by have : (j 0).val < W := (j 0).isLt; omega⟩ :
        (⟨2, ![A, M]⟩ : Shape).Idx) a).isLt⟩]
  congr 1; funext a; apply Fin.ext
  simp only [key a, Int.toNat_natCast]

/-- That segment write read at an index: row `i0`, columns `j0 ≤ m < j0 + W` hold the update, the rest the operand. -/
theorem Host.scatter_segWrite_apply {A M W : ℕ} {α : Type}
    (wf : ScatterDims.WF ⟨2, ![A, M]⟩ ⟨1, ![2]⟩ ⟨1, ![W]⟩ [0] [0] [0, 1] 0)
    (x : (⟨2, ![A, M]⟩ : Shape).Idx → α) (idx : IVec ⟨1, ![2]⟩ 32) (upd : (⟨1, ![W]⟩ : Shape).Idx → α)
    (i0 j0 : ℕ) (h0 : (idx (ix1 0)).toInt = i0) (h1 : (idx (ix1 1)).toInt = j0) (hi : i0 < A) (hj : j0 + W ≤ M)
    (a : Fin A) (m : Fin M) :
    Host.scatter (⟨[0], [0], [0, 1], 0, wf⟩ : ScatterDims ⟨2, ![A, M]⟩ ⟨1, ![2]⟩ ⟨1, ![W]⟩) (fun _ b => b)
        x idx upd (ix2 a m)
      = if hc : a.val = i0 ∧ j0 ≤ m.val ∧ m.val < j0 + W then upd (ix1 ⟨m.val - j0, by omega⟩)
        else x (ix2 a m) := by
  have hg := segWrite_resultIdx wf idx i0 j0 h0 h1 hi hj
  have hinj : Function.Injective (fun j : (⟨1, ![W]⟩ : Shape).Idx =>
      (ix2 ⟨i0, hi⟩ ⟨j0 + (j 0).val, by have : (j 0).val < W := (j 0).isLt; omega⟩ : (⟨2, ![A, M]⟩ : Shape).Idx)) := by
    intro j j' e
    have e1 : j0 + (j 0).val = j0 + (j' 0).val := congrArg Fin.val (congrFun e 1)
    rw [eq_ix1 j, eq_ix1 j', Fin.ext (Nat.add_left_cancel e1)]
  split_ifs with hc
  · have hm' : (ix2 a m : (⟨2, ![A, M]⟩ : Shape).Idx)
        = (fun j : (⟨1, ![W]⟩ : Shape).Idx =>
            (ix2 ⟨i0, hi⟩ ⟨j0 + (j 0).val, by have : (j 0).val < W := (j 0).isLt; omega⟩ :
              (⟨2, ![A, M]⟩ : Shape).Idx))
            (ix1 ⟨m.val - j0, by omega⟩) := by
      funext b
      match b with
      | ⟨0, _⟩ => exact Fin.ext hc.1
      | ⟨1, _⟩ => exact Fin.ext (show m.val = j0 + (m.val - j0) by omega)
    rw [hm']
    exact Host.scatter_set_apply_of_eq _ x idx upd _ hg hinj _
  · refine Host.scatter_set_apply_of_ne _ x idx upd _ hg _ fun j e => hc ?_
    have e0 : i0 = a.val := congrArg Fin.val (congrFun e 0)
    have e1 : j0 + (j 0).val = m.val := congrArg Fin.val (congrFun e 1)
    have : (j 0).val < W := (j 0).isLt
    omega

end BlockWrites

end Idealize.ShloMosaic
-- ==== Proof.KHost.lean ====
/-
  What the kernel program's host operations leave in the buffers its two regions are launched on: the transposed
  weight W1ᵀ, the two transposed halves of W2, and the [8,128] array whose row 0 is gamma and row 1 is beta; the
  argument arrays themselves are untouched.
-/
import proofs.«131860_g61323543053001_cont_9to1c4b_809_4_alg».proof.Proof.Spec
import proofs.«131860_g61323543053001_cont_9to1c4b_809_4_alg».proof.Proof.LibScatterSet
import proofs.«131860_g61323543053001_cont_9to1c4b_809_4_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.KHost

open Cert.KernelIdeal Cert.KernelIdeal.Gen Cert.Spec

variable (m : (ℓ : Loc nD τ sig) → Buf (Elt Ideal) ℓ) (ρ : Dev nD → PrngReg)

/-- No host operation writes seq_self, seq or adj. -/
theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results

/-- The first region's third operand is W1 transposed. -/
theorem V1_w1t (c : Dev nD) :
    V1 m ρ c main_call0_v0 = transpose S128x128 [1, 0] (m ((c : Thread nD τ).loc main_arg3)) transposes_S128x128_S128x128_1_0 := by
  show StableHlo.after hostOps0 (W0 m ρ c) (Proc.devRef .tc main_call0_v0) = _
  after_results
  rfl

/-- The second region's third operand: the first 128 columns of W2, transposed. -/
theorem V1_w2at (c : Dev nD) :
    V1 m ρ c main_call0_v2 = transpose S128x128 [1, 0]
      (extractStridedSlice S128x128 ![0, 0] (m ((c : Thread nD τ).loc main_arg4)) slices_S128x256_S128x128_0_0) transposes_S128x128_S128x128_1_0 := by
  show StableHlo.after hostOps0 (W0 m ρ c) (Proc.devRef .tc main_call0_v2) = _
  after_results
  rfl

/-- The second region's fourth operand: the last 128 columns of W2, transposed. -/
theorem V1_w2bt (c : Dev nD) :
    V1 m ρ c main_call0_v4 = transpose S128x128 [1, 0]
      (extractStridedSlice S128x128 ![0, 128] (m ((c : Thread nD τ).loc main_arg4)) slices_S128x256_S128x128_0_128) transposes_S128x128_S128x128_1_0 := by
  show StableHlo.after hostOps0 (W0 m ρ c) (Proc.devRef .tc main_call0_v4) = _
  after_results
  rfl

/-- The second region's sixth operand: the zero [8,128] array with gamma written into row 0, then beta into row 1. -/
theorem V1_gb (c : Dev nD) :
    V1 m ρ c main_call0_v9 = Host.scatter scatter_S8x128_S1_S128_0_0_0_0 (fun _ b => b)
      (Host.scatter scatter_S8x128_S1_S128_0_0_0_0 (fun _ b => b)
        (broadcastInDim S8x128 ![] bcast_S_S8x128 (constant (F := Ideal) S_ .f32 0x00000000#32))
        (broadcastInDim S1 ![] bcast_S_S1 (constantI S_ 32 0#32)) (m ((c : Thread nD τ).loc main_arg5)))
      (broadcastInDim S1 ![] bcast_S_S1 (constantI S_ 32 1#32)) (m ((c : Thread nD τ).loc main_arg6)) := by
  show StableHlo.after hostOps0 (W0 m ρ c) (Proc.devRef .tc main_call0_v9) = _
  after_results
  simp only [StableHlo.TRef.toBuf, StableHlo.TRef.ofBuf, cast_eq]

/-! ## The same, read at an index -/

/-- W1ᵀ at (k, q) is W1 at (q, k). -/
theorem w1t_apply (c : Dev nD) (k q : Fin 128) :
    (V1 m ρ c main_call0_v0 : A2 128 128) (ix2 k q) = (m ((c : Thread nD τ).loc main_arg3) : A2 128 128) (ix2 q k) := by
  rw [V1_w1t]
  exact transpose_apply [1, 0] _ transposes_S128x128_S128x128_1_0 (ix2 k q) (ix2 q k)
    (fun b => by match b with | ⟨0, _⟩ => rfl | ⟨1, _⟩ => rfl)

/-- The transposed first half of W2 at (k, q) is W2 at (q, k). -/
theorem w2at_apply (c : Dev nD) (k q : Fin 128) :
    (V1 m ρ c main_call0_v2 : A2 128 128) (ix2 k q) = (m ((c : Thread nD τ).loc main_arg4) : A2 128 256) (ix2 q (lo k)) := by
  rw [V1_w2at]
  refine (transpose_apply [1, 0] _ transposes_S128x128_S128x128_1_0 (ix2 k q) (ix2 q k)
    (fun b => by match b with | ⟨0, _⟩ => rfl | ⟨1, _⟩ => rfl)).trans ?_
  exact extractStridedSlice_apply ![0, 0] _ slices_S128x256_S128x128_0_0 (ix2 q k) (ix2 q (lo k))
    (fun a => by match a with | ⟨0, _⟩ => exact (Nat.zero_add _).symm | ⟨1, _⟩ => exact (Nat.zero_add _).symm)

/-- The transposed second half of W2 at (k, q) is W2 at (q, 128 + k). -/
theorem w2bt_apply (c : Dev nD) (k q : Fin 128) :
    (V1 m ρ c main_call0_v4 : A2 128 128) (ix2 k q) = (m ((c : Thread nD τ).loc main_arg4) : A2 128 256) (ix2 q (hi k)) := by
  rw [V1_w2bt]
  refine (transpose_apply [1, 0] _ transposes_S128x128_S128x128_1_0 (ix2 k q) (ix2 q k)
    (fun b => by match b with | ⟨0, _⟩ => rfl | ⟨1, _⟩ => rfl)).trans ?_
  exact extractStridedSlice_apply ![0, 128] _ slices_S128x256_S128x128_0_128 (ix2 q k) (ix2 q (hi k))
    (fun a => by match a with | ⟨0, _⟩ => exact (Nat.zero_add _).symm | ⟨1, _⟩ => rfl)

/-- Row 0 of the gamma/beta array is gamma. -/
theorem gb0_apply (c : Dev nD) (q : Fin 128) :
    (V1 m ρ c main_call0_v9 : A2 8 128) (ix2 (0 : Fin 8) q) = (m ((c : Thread nD τ).loc main_arg5) : A1 128) (ix1 q) := by
  rw [V1_gb]
  refine (Host.scatter_rowWrite_apply scatter_S8x128_S1_S128_0_0_0_0_wf _ _ _ 1 rfl (by decide) (0 : Fin 8) q).trans ?_
  rw [if_neg (by decide)]
  refine (Host.scatter_rowWrite_apply scatter_S8x128_S1_S128_0_0_0_0_wf _ _ _ 0 rfl (by decide) (0 : Fin 8) q).trans ?_
  exact if_pos rfl

/-- Row 1 of the gamma/beta array is beta. -/
theorem gb1_apply (c : Dev nD) (q : Fin 128) :
    (V1 m ρ c main_call0_v9 : A2 8 128) (ix2 (1 : Fin 8) q) = (m ((c : Thread nD τ).loc main_arg6) : A1 128) (ix1 q) := by
  rw [V1_gb]
  refine (Host.scatter_rowWrite_apply scatter_S8x128_S1_S128_0_0_0_0_wf _ _ _ 1 rfl (by decide) (1 : Fin 8) q).trans ?_
  exact if_pos rfl

end Cert.KernelIdeal.KHost

end
-- ==== Proof.KR0Rows.lean ====
/-
  Region 0 of the kernel program, the geometry: which rows of its arrays each grid point's blocks hold, and the
  matrix output read back from its 50 written-back row blocks of 200 rows.
-/
import proofs.«131860_g61323543053001_cont_9to1c4b_809_4_alg».proof.Proof.Spec
import proofs.«131860_g61323543053001_cont_9to1c4b_809_4_alg».proof.Proof.Gen.KernelIdeal.Frame
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.Spec

variable (V : (c : Dev nD) → (b : Ref sig .tc) → Buf (Elt Ideal) ((c : Thread nD τ).loc b))

/-- The windows' index maps over the 50 grid points: the adj window and the matrix output sit at row block `t`;
    seq, W1ᵀ and the statistics output are whole at every point. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- Row `p` of row block `t`: row `200 t + p` of the array. -/
def rowOf (t : Fin cfg0.N) (p : Fin 200) : Fin 10000 :=
  ⟨200 * t.val + p.val, by have := t.isLt; have : cfg0.N = 50 := N_0; have := p.isLt; omega⟩

/-- The adj window's block at point `t` holds rows `200 t …` of adj, all 10000 columns. -/
theorem adj_block (c : Dev nD) (t : Fin cfg0.N) (p : Fin 200) (j : Fin 10000) :
    iblk0 V c 0 t (ix2 p j) = V c main_arg2 (ix2 (rowOf t p) j) := by
  obtain ⟨e0, e1, -⟩ := block_index0 t
  show V c main_arg2 (((cfg0.win 0).blk t).view.emb (ix2 p j)) = _
  refine congrArg (V c main_arg2) (funext fun a => Fin.ext ?_)
  match a with
  | ⟨0, _⟩ => show win0_0.index t (0 : Fin 2) * 200 + 1 * p.val = 200 * t.val + p.val; omega
  | ⟨1, _⟩ => show win0_0.index t (1 : Fin 2) * 10000 + 1 * j.val = j.val; omega

/-- seq is staged whole at every point. -/
theorem seq_whole (c : Dev nD) (t : Fin cfg0.N) : iblk0 V c 1 t = V c main_arg1 := by
  obtain ⟨-, -, e0, e1, -⟩ := block_index0 t
  funext y
  show V c main_arg1 (((cfg0.win 1).blk t).view.emb y) = _
  refine congrArg (V c main_arg1) (funext fun a => Fin.ext ?_)
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- W1ᵀ is staged whole at every point. -/
theorem w1t_whole (c : Dev nD) (t : Fin cfg0.N) : iblk0 V c 2 t = V c main_call0_v0 := by
  obtain ⟨-, -, -, -, e0, e1, -⟩ := block_index0 t
  funext y
  show V c main_call0_v0 (((cfg0.win 2).blk t).view.emb y) = _
  refine congrArg (V c main_call0_v0) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The product block of point `t`'s input blocks, at row `p` and column `q`, is the whole product at row
    `200 t + p` — given the product block read at an entry as the double sum (`hpay`). -/
theorem block_mm (c : Dev nD) (t : Fin cfg0.N)
    (hpay : ∀ (x0 : Vec Ideal S200x10000 .f32) (x1 : Vec Ideal S10000x128 .f32) (x2 : Vec Ideal S128x128 .f32)
      (p : Fin 200) (q : Fin 128),
      k0_pay1 x0 x1 x2 (ix2 p q) = ∑ k : Fin 128, (∑ j : Fin 10000, x0 (ix2 p j) * x1 (ix2 j k)) * x2 (ix2 k q))
    (p : Fin 200) (q : Fin 128) :
    k0_pay1 (iblk0 V c 0 t) (iblk0 V c 1 t) (iblk0 V c 2 t) (ix2 p q)
      = mmAt (V c main_arg2) (V c main_arg1) (V c main_call0_v0) (rowOf t p) q := by
  rw [hpay, seq_whole, w1t_whole]
  unfold mmAt
  exact Finset.sum_congr rfl fun k _ => congrArg (· * _)
    (Finset.sum_congr rfl fun j _ => congrArg (· * _) (adj_block V c t p j))

/-- An index of the matrix output is in point `t`'s block iff each coordinate is in the block's range on its axis. -/
theorem mem_block3 (t : Fin cfg0.N) (i : S10000x128.Idx) :
    i ∈ ((cfg0.win 3).blk t).view.set ↔ ∀ a : Fin 2, win0_3.index t a * S200x128.size a ≤ (i a).val
      ∧ (i a).val < win0_3.index t a * S200x128.size a + S200x128.size a := by
  show i ∈ ((View.whole main_call0_v10_0).slice (win0_3.rect t)).set ↔ _
  rw [View.set_slice_whole, Rect.mem_set_unit]
  exact Iff.rfl

/-- Row `r` of the matrix output lies in the block of point `r / 200`, which is written back. -/
theorem rows_covered0 (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 50 := N_0
  obtain ⟨t, ht⟩ : ∃ t : Fin cfg0.N, t.val = (i 0).val / 200 := ⟨⟨(i 0).val / 200, by omega⟩, rfl⟩
  obtain ⟨-, -, -, -, -, -, e0, e1, -⟩ := block_index0 t
  refine ⟨t, flush0_3 t, ?_⟩
  rw [mem_block3]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 128 ≤ (i 1).val ∧ (i 1).val < win0_3.index t (1 : Fin 2) * 128 + 128
    omega

/-- If every point leaves the product block of its input blocks in the matrix output's buffer (`hout`), the matrix
    output after the run is the whole product. -/
theorem h_eq_of (c : Dev nD)
    (hout : ∀ t : Fin cfg0.N, (outsAt0 V c t.val t.isLt).1 = k0_pay1 (iblk0 V c 0 t) (iblk0 V c 1 t) (iblk0 V c 2 t))
    (hpay : ∀ (x0 : Vec Ideal S200x10000 .f32) (x1 : Vec Ideal S10000x128 .f32) (x2 : Vec Ideal S128x128 .f32)
      (p : Fin 200) (q : Fin 128),
      k0_pay1 x0 x1 x2 (ix2 p q) = ∑ k : Fin 128, (∑ j : Fin 10000, x0 (ix2 p j) * x1 (ix2 j k)) * x2 (ix2 k q)) :
    (dat0 V c).arrAt 3 cfg0.N = mm (V c main_arg2) (V c main_arg1) (V c main_call0_v0) := by
  refine (dat0 V c).arrAt_eq_of_cover 3 _ (fun t _ => ?_) rows_covered0
  show (cfg0.win 3).cut (grid0.coords t) ((dat0 V c).after 3 t) = _
  rw [after0_3, hout t]
  obtain ⟨-, -, -, -, -, -, e0, e1, -⟩ := block_index0 t
  funext j
  obtain ⟨p, q, rfl⟩ : ∃ (p : Fin 200) (q : Fin 128), j = ix2 p q := ⟨j 0, j 1, eq_ix2 j⟩
  refine (block_mm V c t hpay p q).trans ?_
  have er : (((cfg0.win 3).blk t).view.emb (ix2 p q)) 0 = rowOf t p :=
    Fin.ext (by show win0_3.index t (0 : Fin 2) * 200 + 1 * p.val = 200 * t.val + p.val; omega)
  have ec : (((cfg0.win 3).blk t).view.emb (ix2 p q)) 1 = q :=
    Fin.ext (by show win0_3.index t (1 : Fin 2) * 128 + 1 * q.val = q.val; omega)
  exact (congrArg₂ (mmAt (V c main_arg2) (V c main_arg1) (V c main_call0_v0)) er ec).symm

/-- The block-by-block sum over the grid's points is the specification's sum over 50 blocks. -/
theorem rowOf_eq_row (t : Fin cfg0.N) (p : Fin 200) :
    rowOf t p = row ⟨t.val, lt_of_lt_of_eq t.isLt N_0⟩ p := rfl

end Cert.KernelIdeal.R0

end
-- ==== Proof.KR0.lean ====
/-
  Region 0 of the kernel program (the matmul kernel over 50 row blocks of 200 rows), read as values at the ideal
  instance: its matrix output is (adj @ seq) @ w1t of the arrays it is launched on, and rows 0 and 1 of its statistics
  output are the column sums and the column sums of squares of that matrix, accumulated block by block.

  The road: the product block at an entry is the double sum (two plain M×K by K×N products into zero); the statistics
  block is written row by row, so after a point its rows 0 and 1 are the rows it held (zero at the first point, which
  clears the block) plus the block's column sums and column sums of squares; by induction on the point the rows hold the
  sums over the row blocks so far; the block is written back once, after the last point, and it is the whole array.
-/
import proofs.«131860_g61323543053001_cont_9to1c4b_809_4_alg».proof.Proof.Spec
import proofs.«131860_g61323543053001_cont_9to1c4b_809_4_alg».proof.Proof.Gen.KernelIdeal.Frame
import proofs.«131860_g61323543053001_cont_9to1c4b_809_4_alg».proof.Proof.KR0Rows
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen Cert.Spec

variable (V : (c : Dev nD) → (b : Ref sig .tc) → Buf (Elt Ideal) ((c : Thread nD τ).loc b))

/-! ## The product block, its column sums and the zero block, at an entry -/

/-- The first product's dimension numbers are the plain M×K by K×N ones. -/
theorem dot1_eq : dot_S200x10000_S10000x128_S200x128_1_0_0_1_n_n = DotDims.plain 200 10000 128 := rfl
/-- So are the second product's. -/
theorem dot2_eq : dot_S200x128_S128x128_S200x128_1_0_0_1_n_n = DotDims.plain 200 128 128 := rfl

/-- The product block at row `p`, column `q`: (x0 @ x1) @ x2 as the double sum. -/
theorem pay1_apply (x0 : Vec Ideal S200x10000 .f32) (x1 : Vec Ideal S10000x128 .f32) (x2 : Vec Ideal S128x128 .f32)
    (p : Fin 200) (q : Fin 128) :
    k0_pay1 x0 x1 x2 (ix2 p q) = ∑ k : Fin 128, (∑ j : Fin 10000, x0 (ix2 p j) * x1 (ix2 j k)) * x2 (ix2 k q) := by
  unfold k0_pay1
  rw [shapeCast_self, matmul_zero_eq_dotGeneral, matmul_zero_eq_dotGeneral, dot1_eq, dot2_eq]
  rw [StackMember.dotGeneral_plain_apply]
  refine Finset.sum_congr rfl fun k _ => ?_
  rw [StackMember.dotGeneral_plain_apply]

/-- The row index a column reduction inserts: coordinate `k` on the dropped axis 0. -/
theorem lift_col (q : Fin 128) (k : Fin 200) : reduces_S200x128_S128.lift (ix1 q) k = ix2 k q := by
  funext a; apply Fin.ext
  match a with
  | ⟨0, _⟩ => rfl
  | ⟨1, _⟩ => rfl

/-- The column sums of a [200,128] block. -/
theorem colsum_apply (src : FVec Ideal S200x128 .f32) (hφ : FKind.Formats .f32)
    (hacc : (0x00000000#32 : BitVec 32) = 0x00000000#32) (q : Fin 128) :
    multiReduction .add [0] S128 src 0x00000000#32 reduces_S200x128_S128 hφ hacc (ix1 q) = ∑ r : Fin 200, src (ix2 r q) :=
  (Ideal.multiReduction_add_single src 0x00000000#32 reduces_S200x128_S128 hφ hacc (ix1 q)).trans
    (Finset.sum_congr rfl fun k _ => congrArg src (lift_col q k))

/-- The row-0 update: the loaded row plus the product block's column sums. -/
theorem pay3_apply (x0 : Vec Ideal S200x10000 .f32) (x1 : Vec Ideal S10000x128 .f32) (x2 : Vec Ideal S128x128 .f32)
    (v : Vec Ideal S1x128 .f32) (u : Fin 1) (q : Fin 128) :
    k0_pay3 x0 x1 x2 v (ix2 u q) = v (ix2 u q) + ∑ r : Fin 200, k0_pay1 x0 x1 x2 (ix2 r q) := by
  unfold k0_pay3
  rw [shapeCast_self]
  refine (addf_apply _ _ _).trans ?_
  congr 1
  refine (shapeCast_a_1a_apply _ _ u q).trans ?_
  exact colsum_apply (k0_pay1 x0 x1 x2) _ _ q

/-- The row-1 update: the loaded row plus the column sums of the product block's squares. -/
theorem pay4_apply (x0 : Vec Ideal S200x10000 .f32) (x1 : Vec Ideal S10000x128 .f32) (x2 : Vec Ideal S128x128 .f32)
    (v : Vec Ideal S1x128 .f32) (u : Fin 1) (q : Fin 128) :
    k0_pay4 x0 x1 x2 v (ix2 u q)
      = v (ix2 u q) + ∑ r : Fin 200, k0_pay1 x0 x1 x2 (ix2 r q) * k0_pay1 x0 x1 x2 (ix2 r q) := by
  unfold k0_pay4
  rw [shapeCast_self]
  refine (addf_apply _ _ _).trans ?_
  congr 1
  refine (shapeCast_a_1a_apply _ _ u q).trans ?_
  exact colsum_apply (mulf (k0_pay1 x0 x1 x2) (k0_pay1 x0 x1 x2)) _ _ q

/-! ## Rows 0 and 1 of the statistics block -/

/-- The zero offsets, as a constant function. -/
theorem zero_off : (![0, 0] : Fin 2 → Nat) = fun _ => 0 := funext fun a => by fin_cases a <;> rfl

/-- Rows 0 and 1 of the [8,128] statistics block, as the rectangles the body loads and stores through. -/
abbrev statRow0 : Rect S8x128 := Rect.unit ![0, 0] S1x128.size inb_S8x128_S1x128_0_0
abbrev statRow1 : Rect S8x128 := Rect.unit ![1, 0] S1x128.size inb_S8x128_S1x128_1_0

/-- Entry `q` of row 0's rectangle is entry (0, q) of the block. -/
theorem emb_statRow0 (q : Fin 128) : statRow0.emb (ix2 (0 : Fin 1) q) = ix2 (0 : Fin 8) q := by
  funext a; apply Fin.ext
  match a with
  | ⟨0, _⟩ => rfl
  | ⟨1, _⟩ => show 0 + 1 * q.val = q.val; omega

/-- Entry `q` of row 1's rectangle is entry (1, q) of the block. -/
theorem emb_statRow1 (q : Fin 128) : statRow1.emb (ix2 (0 : Fin 1) q) = ix2 (1 : Fin 8) q := by
  funext a; apply Fin.ext
  match a with
  | ⟨0, _⟩ => rfl
  | ⟨1, _⟩ => show 0 + 1 * q.val = q.val; omega

/-- Row 0 is outside row 1's rectangle, -/
theorem row0_not_mem_statRow1 (q : Fin 128) : ix2 (0 : Fin 8) q ∉ statRow1.set := by
  rw [Rect.mem_set_unit]; intro h; exact Nat.not_succ_le_zero 0 (h 0).1

/-- and row 1 outside row 0's. -/
theorem row1_not_mem_statRow0 (q : Fin 128) : ix2 (1 : Fin 8) q ∉ statRow0.set := by
  rw [Rect.mem_set_unit]; intro h; exact Nat.lt_irrefl 1 (h 0).2

/-- The zero block the first point stores. -/
theorem pay2_apply (i : S8x128.Idx) : (k0_pay2 (F := Ideal)) i = 0 := by
  unfold k0_pay2
  show Ideal.ofBits .f32 0x00000000#32 = 0
  exact Ideal.ofBits_zero_f32

/-- A load of the statistics block right after the zero store reads zeros. -/
theorem zeroed_read {sg : RefSig} {κ : Kind} {sp : Space} (v : View sg κ sp S8x128 .f32) (B : LoadRect S8x128) (j : B.shape.Idx) :
    v.readCov [(⟨Rect.unit ![0, 0] S8x128.size inb_S8x128_S8x128_0_0, k0_pay2 (F := Ideal)⟩ : View.Piece (Elt Ideal) S8x128 .f32)] B j = 0 := by
  rw [View.readCov_eq_canon']
  show View.canon _ _ = 0
  rw [View.canon_unit_zero zero_off]
  exact pay2_apply _

/-- After stores through row 1 and then row 0 (listed last first), row 0 holds the row-0 store's payload … -/
theorem canon_row0 (w1 : statRow1.shape.Idx → Elt Ideal .f32) (w0 : statRow0.shape.Idx → Elt Ideal .f32)
    (L : List (View.Piece (Elt Ideal) S8x128 .f32)) (q : Fin 128) :
    View.canon ((⟨statRow1, w1⟩ : View.Piece (Elt Ideal) S8x128 .f32) :: ⟨statRow0, w0⟩ :: L) (ix2 (0 : Fin 8) q) = w0 (ix2 (0 : Fin 1) q) := by
  rw [View.canon_cons_of_not_mem (⟨statRow1, w1⟩ : View.Piece (Elt Ideal) S8x128 .f32) (⟨statRow0, w0⟩ :: L) (row0_not_mem_statRow1 q), ← emb_statRow0 q]
  exact View.canon_cons_emb statRow0 w0 L _

/-- … and row 1 the row-1 store's. -/
theorem canon_row1 (w1 : statRow1.shape.Idx → Elt Ideal .f32) (L : List (View.Piece (Elt Ideal) S8x128 .f32)) (q : Fin 128) :
    View.canon ((⟨statRow1, w1⟩ : View.Piece (Elt Ideal) S8x128 .f32) :: L) (ix2 (1 : Fin 8) q) = w1 (ix2 (0 : Fin 1) q) := by
  rw [← emb_statRow1 q]
  exact View.canon_cons_emb statRow1 w1 L _

/-- A load of row 1 after the zero store and a store through row 0 still reads zeros. -/
theorem zeroed_read_row1 {sg : RefSig} {κ : Kind} {sp : Space} (v : View sg κ sp S8x128 .f32) (w0 : statRow0.shape.Idx → Elt Ideal .f32)
    (j : statRow1.toLoadRect.shape.Idx) :
    v.readCov [(⟨statRow0, w0⟩ : View.Piece (Elt Ideal) S8x128 .f32), ⟨Rect.unit ![0, 0] S8x128.size inb_S8x128_S8x128_0_0, k0_pay2 (F := Ideal)⟩]
      statRow1.toLoadRect j = 0 := by
  have hd : Disjoint statRow0.set statRow1.set := Rect.unit_disjoint 0 (Or.inl (Nat.le_refl 1))
  rw [View.readCov_cons_of_disjoint v (⟨statRow0, w0⟩ : View.Piece (Elt Ideal) S8x128 .f32) _ statRow1.toLoadRect hd]
  exact zeroed_read v _ _

/-! ## What each case of the body leaves in the two output blocks -/

/-- At the first point the matrix block is the product block. -/
theorem outA3 (c : Dev nD) (i : grid0.Coords) (a1 : Memref sig .tc .vmem S200x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S200x128 .f32) (h4 : a4.IsWhole) (a5 : Memref sig .tc .vmem S8x128 .f32) (h5 : a5.IsWhole)
    (hc : cond0_0 i) (x0 : Vec Ideal S200x10000 .f32) (x1 : Vec Ideal S10000x128 .f32) (x2 : Vec Ideal S128x128 .f32) :
    out0_A_3 c i a1 h1 a2 h2 a3 h3 a4 h4 a5 h5 hc x0 x1 x2 = k0_pay1 x0 x1 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero zero_off]
  simp only [View.readAt_eq_ld, h1.read_unread, h2.read_unread, h3.read_unread,
    View.ld_unit_zero (S := S200x10000) zero_off, View.ld_unit_zero (S := S10000x128) zero_off, View.ld_unit_zero (S := S128x128) zero_off]

/-- At the first point row 0 of the statistics block is the block's column sums, added to the zero just stored. -/
theorem outA4_row0 (c : Dev nD) (i : grid0.Coords) (a1 : Memref sig .tc .vmem S200x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S200x128 .f32) (h4 : a4.IsWhole) (a5 : Memref sig .tc .vmem S8x128 .f32) (h5 : a5.IsWhole)
    (hc : cond0_0 i) (x0 : Vec Ideal S200x10000 .f32) (x1 : Vec Ideal S10000x128 .f32) (x2 : Vec Ideal S128x128 .f32) (q : Fin 128) :
    out0_A_4 c i a1 h1 a2 h2 a3 h3 a4 h4 a5 h5 hc x0 x1 x2 (ix2 (0 : Fin 8) q) = ∑ r : Fin 200, k0_pay1 x0 x1 x2 (ix2 r q) := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread,
    View.ld_unit_zero (S := S200x10000) zero_off, View.ld_unit_zero (S := S10000x128) zero_off, View.ld_unit_zero (S := S128x128) zero_off]
  refine (canon_row0 _ _ _ q).trans ?_
  refine (pay3_apply x0 x1 x2 _ 0 q).trans ?_
  rw [zeroed_read, zero_add]

/-- At the first point row 1 is the column sums of squares, added to the zero just stored. -/
theorem outA4_row1 (c : Dev nD) (i : grid0.Coords) (a1 : Memref sig .tc .vmem S200x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S200x128 .f32) (h4 : a4.IsWhole) (a5 : Memref sig .tc .vmem S8x128 .f32) (h5 : a5.IsWhole)
    (hc : cond0_0 i) (x0 : Vec Ideal S200x10000 .f32) (x1 : Vec Ideal S10000x128 .f32) (x2 : Vec Ideal S128x128 .f32) (q : Fin 128) :
    out0_A_4 c i a1 h1 a2 h2 a3 h3 a4 h4 a5 h5 hc x0 x1 x2 (ix2 (1 : Fin 8) q)
      = ∑ r : Fin 200, k0_pay1 x0 x1 x2 (ix2 r q) * k0_pay1 x0 x1 x2 (ix2 r q) := by
  unfold out0_A_4
  rw [View.read_writes_eq_canon _ _ _ (cover0_A_4 c i a1 h1 a2 h2 a3 h3 a4 h4 a5 h5 hc x0 x1 x2)]
  unfold kernelRun0_A
  dsimp only
  sl_unfold_words
  simp only [View.readAt_eq_ld, h1.read_unread, h2.read_unread, h3.read_unread,
    View.ld_unit_zero (S := S200x10000) zero_off, View.ld_unit_zero (S := S10000x128) zero_off, View.ld_unit_zero (S := S128x128) zero_off]
  refine (canon_row1 _ _ q).trans ?_
  refine (pay4_apply x0 x1 x2 _ 0 q).trans ?_
  rw [zeroed_read_row1, zero_add]

/-- Contents written through row 1 and then row 0 (listed last first) read, in row 0, the row-0 store's payload … -/
theorem read_writes_row0 {sg : RefSig} {κ : Kind} {sp : Space} (v : View sg κ sp S8x128 .f32) (f : v.ty.Contents (Elt Ideal))
    (w1 : statRow1.shape.Idx → Elt Ideal .f32) (w0 : statRow0.shape.Idx → Elt Ideal .f32)
    (L : List (View.Piece (Elt Ideal) S8x128 .f32)) (q : Fin 128) :
    v.read (Elt Ideal) (v.writes (Elt Ideal) f ((⟨statRow1, w1⟩ : View.Piece (Elt Ideal) S8x128 .f32) :: ⟨statRow0, w0⟩ :: L)) (ix2 (0 : Fin 8) q)
      = w0 (ix2 (0 : Fin 1) q) := by
  rw [View.writes_cons, View.read_slice_write_of_not_mem statRow1 _ w1 Finset.univ (y := ix2 (0 : Fin 8) q)
    (by rw [Rect.map_emb_univ]; exact row0_not_mem_statRow1 q), ← emb_statRow0 q]
  exact View.read_writes_cons_emb v f statRow0 w0 L _

/-- … and, in row 1, the row-1 store's. -/
theorem read_writes_row1 {sg : RefSig} {κ : Kind} {sp : Space} (v : View sg κ sp S8x128 .f32) (f : v.ty.Contents (Elt Ideal))
    (w1 : statRow1.shape.Idx → Elt Ideal .f32) (L : List (View.Piece (Elt Ideal) S8x128 .f32)) (q : Fin 128) :
    v.read (Elt Ideal) (v.writes (Elt Ideal) f ((⟨statRow1, w1⟩ : View.Piece (Elt Ideal) S8x128 .f32) :: L)) (ix2 (1 : Fin 8) q)
      = w1 (ix2 (0 : Fin 1) q) := by
  rw [← emb_statRow1 q]
  exact View.read_writes_cons_emb v f statRow1 w1 L _

/-- At a later point the matrix block is the product block. -/
theorem outB3 (c : Dev nD) (i : grid0.Coords) (a1 : Memref sig .tc .vmem S200x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S200x128 .f32) (h4 : a4.IsWhole) (a5 : Memref sig .tc .vmem S8x128 .f32) (h5 : a5.IsWhole)
    (hc : ¬cond0_0 i) (x0 : Vec Ideal S200x10000 .f32) (x1 : Vec Ideal S10000x128 .f32) (x2 : Vec Ideal S128x128 .f32) (xo : Vec Ideal S8x128 .f32) :
    out0_B_3 c i a1 h1 a2 h2 a3 h3 a4 h4 a5 h5 hc x0 x1 x2 xo = k0_pay1 x0 x1 x2 := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_unit_zero zero_off]
  simp only [View.readAt_eq_ld, h1.read_unread, h2.read_unread, h3.read_unread,
    View.ld_unit_zero (S := S200x10000) zero_off, View.ld_unit_zero (S := S10000x128) zero_off, View.ld_unit_zero (S := S128x128) zero_off]

/-- At a later point row 0 of the statistics block is what it held plus the block's column sums. -/
theorem outB4_row0 (c : Dev nD) (i : grid0.Coords) (a1 : Memref sig .tc .vmem S200x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S200x128 .f32) (h4 : a4.IsWhole) (a5 : Memref sig .tc .vmem S8x128 .f32) (h5 : a5.IsWhole)
    (hc : ¬cond0_0 i) (x0 : Vec Ideal S200x10000 .f32) (x1 : Vec Ideal S10000x128 .f32) (x2 : Vec Ideal S128x128 .f32) (xo : Vec Ideal S8x128 .f32) (q : Fin 128) :
    out0_B_4 c i a1 h1 a2 h2 a3 h3 a4 h4 a5 h5 hc x0 x1 x2 xo (ix2 (0 : Fin 8) q)
      = xo (ix2 (0 : Fin 8) q) + ∑ r : Fin 200, k0_pay1 x0 x1 x2 (ix2 r q) := by
  unfold out0_B_4
  unfold kernelRun0_B
  dsimp only
  sl_unfold_words
  simp only [View.readAt_eq_ld, h1.read_unread, h2.read_unread, h3.read_unread, h5.read_unread,
    View.ld_unit_zero (S := S200x10000) zero_off, View.ld_unit_zero (S := S10000x128) zero_off, View.ld_unit_zero (S := S128x128) zero_off]
  refine (read_writes_row0 a5.view _ _ _ _ q).trans ?_
  refine (pay3_apply x0 x1 x2 _ 0 q).trans ?_
  exact congrArg (· + _) (congrArg xo (emb_statRow0 q))

/-- At a later point row 1 is what it held plus the block's column sums of squares. -/
theorem outB4_row1 (c : Dev nD) (i : grid0.Coords) (a1 : Memref sig .tc .vmem S200x10000 .f32) (h1 : a1.IsWhole)
    (a2 : Memref sig .tc .vmem S10000x128 .f32) (h2 : a2.IsWhole) (a3 : Memref sig .tc .vmem S128x128 .f32) (h3 : a3.IsWhole)
    (a4 : Memref sig .tc .vmem S200x128 .f32) (h4 : a4.IsWhole) (a5 : Memref sig .tc .vmem S8x128 .f32) (h5 : a5.IsWhole)
    (hc : ¬cond0_0 i) (x0 : Vec Ideal S200x10000 .f32) (x1 : Vec Ideal S10000x128 .f32) (x2 : Vec Ideal S128x128 .f32) (xo : Vec Ideal S8x128 .f32) (q : Fin 128) :
    out0_B_4 c i a1 h1 a2 h2 a3 h3 a4 h4 a5 h5 hc x0 x1 x2 xo (ix2 (1 : Fin 8) q)
      = xo (ix2 (1 : Fin 8) q) + ∑ r : Fin 200, k0_pay1 x0 x1 x2 (ix2 r q) * k0_pay1 x0 x1 x2 (ix2 r q) := by
  unfold out0_B_4
  unfold kernelRun0_B
  dsimp only
  sl_unfold_words
  simp only [View.readAt_eq_ld, h1.read_unread, h2.read_unread, h3.read_unread, h5.read_unread,
    View.ld_unit_zero (S := S200x10000) zero_off, View.ld_unit_zero (S := S10000x128) zero_off, View.ld_unit_zero (S := S128x128) zero_off]
  refine (read_writes_row1 a5.view _ _ _ q).trans ?_
  refine (pay4_apply x0 x1 x2 _ 0 q).trans ?_
  exact congrArg (· + _) (congrArg xo (emb_statRow1 q))

/-! ## Point by point -/

/-- Every point leaves the product block of its input blocks in the matrix output's buffer. -/
theorem outs_fst (c : Dev nD) (t : Fin cfg0.N) :
    (outsAt0 V c t.val t.isLt).1 = k0_pay1 (iblk0 V c 0 t) (iblk0 V c 1 t) (iblk0 V c 2 t) := by
  by_cases h0 : t.val % 50 = 0
  · rw [outsAt0_A V c t h0]
    dsimp only
    exact outA3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  · rw [outsAt0_B V c t h0]
    dsimp only
    exact outB3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t)
      (outsAt0 V c (t.val - 1) (Nat.lt_of_le_of_lt (Nat.sub_le _ _) t.isLt)).2

/-- Row block `t`'s column sums of the product (zero past the 50 blocks). -/
def colBlock (A : A2 10000 10000) (B : A2 10000 128) (W : A2 128 128) (q : Fin 128) (t : ℕ) : EReal :=
  if h : t < 50 then ∑ r : Fin 200, mmAt A B W (row ⟨t, h⟩ r) q else 0

/-- Row block `t`'s column sums of squares of the product (zero past the 50 blocks). -/
def sqBlock (A : A2 10000 10000) (B : A2 10000 128) (W : A2 128 128) (q : Fin 128) (t : ℕ) : EReal :=
  if h : t < 50 then ∑ r : Fin 200, mmAt A B W (row ⟨t, h⟩ r) q * mmAt A B W (row ⟨t, h⟩ r) q else 0

/-- The column sums of point `t`'s product block are row block `t`'s of the whole product. -/
theorem colBlock_eq (c : Dev nD) (t : Fin cfg0.N) (q : Fin 128) :
    ∑ r : Fin 200, k0_pay1 (iblk0 V c 0 t) (iblk0 V c 1 t) (iblk0 V c 2 t) (ix2 r q)
      = colBlock (V c main_arg2) (V c main_arg1) (V c main_call0_v0) q t.val := by
  unfold colBlock
  rw [dif_pos (lt_of_lt_of_eq t.isLt N_0)]
  exact Finset.sum_congr rfl fun r _ => block_mm V c t pay1_apply r q

/-- The column sums of squares of point `t`'s product block are row block `t`'s of the whole product. -/
theorem sqBlock_eq (c : Dev nD) (t : Fin cfg0.N) (q : Fin 128) :
    ∑ r : Fin 200, k0_pay1 (iblk0 V c 0 t) (iblk0 V c 1 t) (iblk0 V c 2 t) (ix2 r q)
        * k0_pay1 (iblk0 V c 0 t) (iblk0 V c 1 t) (iblk0 V c 2 t) (ix2 r q)
      = sqBlock (V c main_arg2) (V c main_arg1) (V c main_call0_v0) q t.val := by
  unfold sqBlock
  rw [dif_pos (lt_of_lt_of_eq t.isLt N_0)]
  exact Finset.sum_congr rfl fun r _ => by rw [block_mm V c t pay1_apply r q]; rfl

/-- After point `n`, row 0 of the statistics buffer holds the column sums of row blocks 0 … n. -/
theorem stats_inv0 (c : Dev nD) (q : Fin 128) : ∀ (n : ℕ) (h : n < cfg0.N),
    (outsAt0 V c n h).2 (ix2 (0 : Fin 8) q)
      = ∑ t ∈ Finset.range (n + 1), colBlock (V c main_arg2) (V c main_arg1) (V c main_call0_v0) q t
  | 0, h => by
    rw [outsAt0_A V c ⟨0, h⟩ rfl]
    dsimp only
    refine (outA4_row0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩) (iblk0 V c 2 ⟨0, h⟩) q).trans ?_
    rw [Finset.sum_range_one]
    exact colBlock_eq V c ⟨0, h⟩ q
  | n + 1, h => by
    have hN : cfg0.N = 50 := N_0
    have hB : ¬(⟨n + 1, h⟩ : Fin cfg0.N).val % 50 = 0 := by dsimp only; omega
    rw [outsAt0_B V c ⟨n + 1, h⟩ hB]
    dsimp only
    refine (outB4_row0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩)
      (outsAt0 V c n (Nat.lt_of_succ_lt h)).2 q).trans ?_
    rw [Finset.sum_range_succ _ (n + 1), stats_inv0 c q n (Nat.lt_of_succ_lt h)]
    exact congrArg (_ + ·) (colBlock_eq V c ⟨n + 1, h⟩ q)

/-- After point `n`, row 1 of the statistics buffer holds the column sums of squares of row blocks 0 … n. -/
theorem stats_inv1 (c : Dev nD) (q : Fin 128) : ∀ (n : ℕ) (h : n < cfg0.N),
    (outsAt0 V c n h).2 (ix2 (1 : Fin 8) q)
      = ∑ t ∈ Finset.range (n + 1), sqBlock (V c main_arg2) (V c main_arg1) (V c main_call0_v0) q t
  | 0, h => by
    rw [outsAt0_A V c ⟨0, h⟩ rfl]
    dsimp only
    refine (outA4_row1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk0 V c 0 ⟨0, h⟩) (iblk0 V c 1 ⟨0, h⟩) (iblk0 V c 2 ⟨0, h⟩) q).trans ?_
    rw [Finset.sum_range_one]
    exact sqBlock_eq V c ⟨0, h⟩ q
  | n + 1, h => by
    have hN : cfg0.N = 50 := N_0
    have hB : ¬(⟨n + 1, h⟩ : Fin cfg0.N).val % 50 = 0 := by dsimp only; omega
    rw [outsAt0_B V c ⟨n + 1, h⟩ hB]
    dsimp only
    refine (outB4_row1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩)
      (outsAt0 V c n (Nat.lt_of_succ_lt h)).2 q).trans ?_
    rw [Finset.sum_range_succ _ (n + 1), stats_inv1 c q n (Nat.lt_of_succ_lt h)]
    exact congrArg (_ + ·) (sqBlock_eq V c ⟨n + 1, h⟩ q)

/-! ## The one write-back of the statistics block -/

/-- The buffers' contents after a point depend on the point's number only. -/
theorem outs_congr (c : Dev nD) {n n' : ℕ} (e : n = n') (h : n < cfg0.N) (h' : n' < cfg0.N) :
    outsAt0 V c n h = outsAt0 V c n' h' := by
  subst e; rfl

/-- The last grid point. -/
theorem last_lt : 49 < cfg0.N := lt_of_lt_of_eq (by decide) N_0.symm

/-- What the statistics buffer holds after the last point. -/
abbrev statsLast (c : Dev nD) : Vec Ideal S8x128 .f32 := (outsAt0 V c 49 last_lt).2

/-- The statistics window's one block is its whole [8,128] array: a block index is an array index. -/
theorem stats_emb (t : Fin cfg0.N) (y : S8x128.Idx) : ((cfg0.win 4).blk t).view.emb y = y := by
  obtain ⟨-, -, -, -, -, -, -, -, e0, e1⟩ := block_index0 t
  funext a; apply Fin.ext
  match a with
  | ⟨0, _⟩ => show win0_4.index t (0 : Fin 2) * 8 + 1 * (y 0).val = (y 0).val; omega
  | ⟨1, _⟩ => show win0_4.index t (1 : Fin 2) * 128 + 1 * (y 1).val = (y 1).val; omega

/-- The one write-back of the statistics window, at the last point, writes what the buffer holds then. -/
theorem stats_flushed (c : Dev nD) (t : Fin cfg0.N) (hf : (cfg0.win 4).flush t = true) :
    (dat0 V c).flushed 4 t = ((cfg0.win 4).blk t).view.read (Elt Ideal) (statsLast V c) := by
  have hN : cfg0.N = 50 := N_0
  have h49 : t.val = 49 := by have := (flush0_4 t).mp hf; have := t.isLt; omega
  show (cfg0.win 4).cut (grid0.coords t) ((dat0 V c).after 4 t) = _
  rw [after0_4]
  have e : outsAt0 V c t.val t.isLt = outsAt0 V c 49 last_lt := outs_congr V c h49 t.isLt last_lt
  funext y
  show (outsAt0 V c t.val t.isLt).2 y = statsLast V c (((cfg0.win 4).blk t).view.emb y)
  rw [stats_emb, e]

/-- Every index of the statistics array is in every point's block. -/
theorem stats_mem (t : Fin cfg0.N) (i : S8x128.Idx) : i ∈ ((cfg0.win 4).blk t).view.set := by
  have hi0 : (i 0).val < 8 := (i 0).isLt
  have hi1 : (i 1).val < 128 := (i 1).isLt
  obtain ⟨-, -, -, -, -, -, -, -, e0, e1⟩ := block_index0 t
  show i ∈ ((View.whole main_call0_v10_1).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 128 ≤ (i 1).val ∧ (i 1).val < win0_4.index t (1 : Fin 2) * 128 + 128
    omega

/-- So the last point's write-back covers the statistics array. -/
theorem stats_covered (i : S8x128.Idx) :
    ∃ t : Fin cfg0.N, (cfg0.win 4).flush t = true ∧ i ∈ ((cfg0.win 4).blk t).view.set :=
  ⟨⟨49, last_lt⟩, (flush0_4 ⟨49, last_lt⟩).mpr rfl, stats_mem ⟨49, last_lt⟩ i⟩

/-- The statistics output after the run is what its buffer holds after the last point. -/
theorem stats_final (c : Dev nD) : (dat0 V c).arrAt 4 cfg0.N = statsLast V c :=
  (dat0 V c).arrAt_eq_of_cover 4 (statsLast V c) (stats_flushed V c) stats_covered

/-! ## The region's outputs after the run -/

/-- The matrix output after the run: (adj @ seq) @ w1t of the entry contents. -/
theorem h_eq (c : Dev nD) :
    (dat0 V c).arrAt 3 cfg0.N = mm (V c main_arg2) (V c main_arg1) (V c main_call0_v0) :=
  h_eq_of V c (outs_fst V c) pay1_apply

/-- Row 0 of the statistics output after the run: the column sums, block by block. -/
theorem stats0 (c : Dev nD) (q : Fin 128) :
    (dat0 V c).arrAt 4 cfg0.N (ix2 (0 : Fin 8) q)
      = ∑ t : Fin 50, ∑ r : Fin 200, mmAt (V c main_arg2) (V c main_arg1) (V c main_call0_v0) (row t r) q := by
  rw [stats_final]
  refine (stats_inv0 V c q 49 last_lt).trans ?_
  show ∑ t ∈ Finset.range 50, colBlock _ _ _ q t = _
  rw [Finset.sum_range]
  exact Finset.sum_congr rfl fun t _ => dif_pos t.isLt

/-- Row 1 of the statistics output after the run: the column sums of squares, block by block. -/
theorem stats1 (c : Dev nD) (q : Fin 128) :
    (dat0 V c).arrAt 4 cfg0.N (ix2 (1 : Fin 8) q)
      = ∑ t : Fin 50, ∑ r : Fin 200, mmAt (V c main_arg2) (V c main_arg1) (V c main_call0_v0) (row t r) q
          * mmAt (V c main_arg2) (V c main_arg1) (V c main_call0_v0) (row t r) q := by
  rw [stats_final]
  refine (stats_inv1 V c q 49 last_lt).trans ?_
  show ∑ t ∈ Finset.range 50, sqBlock _ _ _ q t = _
  rw [Finset.sum_range]
  exact Finset.sum_congr rfl fun t _ => dif_pos t.isLt

end Cert.KernelIdeal.R0

end
-- ==== Proof.KR1.lean ====
/-
  Region 1 of the kernel program (the batch-norm kernel over 10 row blocks of 1000 rows), read as values at the ideal
  instance: its output is tanh (self @ w2at + tanh (h * scale + shift) @ w2bt) of the arrays it is launched on,
  scale and shift computed from the statistics array and the gamma/beta array.
-/
import proofs.«131860_g61323543053001_cont_9to1c4b_809_4_alg».proof.Proof.Spec
import proofs.«131860_g61323543053001_cont_9to1c4b_809_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen Cert.Spec

/-! ## The arithmetic of the body, read at one entry -/

/-- The named reciprocal is exactly 1/10000 at the ideal instance. -/
theorem inv_eq : Named.named (F := Ideal) Cert.KernelIdeal.κ "inv_10000" (φ := .f32) 0x38D1B717#32 = invN :=
  IdealRules.named_const.ideal_named_scalar _ _ _ _ rfl

/-- The left operand of the [1000,128] x [128,128] product is read at the result's row ... -/
theorem lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
/-- ... and at the contracted position in its column; -/
theorem lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- the right operand at the contracted position in its row ... -/
theorem rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
/-- ... and at the result's column. -/
theorem rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- A matrix product into the zero accumulator, at row `p` and column `q`: the sum over the 128 contracted positions. -/
theorem product_apply (a : FVec Ideal S1000x128 .f32) (b : FVec Ideal S128x128 .f32) (p : Fin 1000) (q : Fin 128) :
    matmul dot_S1000x128_S128x128_S1000x128_1_0_0_1_n_n none a b (constant S1000x128 .f32 0x00000000#32) (ix2 p q)
      = ∑ k : Fin 128, a (ix2 p k) * b (ix2 k q) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p q) ((contrEquiv1 dot_S1000x128_S128x128_S1000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S1000x128_S128x128_S1000x128_1_0_0_1_n_n.rhsIdx (ix2 p q) ((contrEquiv1 dot_S1000x128_S128x128_S1000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The body's arithmetic at row `p`, column `q` of its block. The four loaded rows are row 0 and row 1 of the
    statistics array `st` and of the gamma/beta array `gb`; the result is tanh of the sum of two 128-term products:
    the seq_self block against the first weight matrix, and tanh of the normalised `h` block against the second. -/
theorem body_apply (st gb : A2 8 128) (v0 v4 v10 v16 : Vec Ideal S1x128 .f32) (v20 v27 : Vec Ideal S1000x128 .f32)
    (v28 v31 : Vec Ideal S128x128 .f32)
    (h0 : ∀ k : Fin 128, v0 (ix2 (0 : Fin 1) k) = st (ix2 (0 : Fin 8) k))
    (h4 : ∀ k : Fin 128, v4 (ix2 (0 : Fin 1) k) = st (ix2 (1 : Fin 8) k))
    (h10 : ∀ k : Fin 128, v10 (ix2 (0 : Fin 1) k) = gb (ix2 (0 : Fin 8) k))
    (h16 : ∀ k : Fin 128, v16 (ix2 (0 : Fin 1) k) = gb (ix2 (1 : Fin 8) k))
    (p : Fin 1000) (q : Fin 128) :
    k1_pay1 v0 v4 v10 v16 v20 v27 v28 v31 (ix2 p q)
      = Ideal.tanh ((∑ k : Fin 128, v27 (ix2 p k) * v28 (ix2 k q))
          + ∑ k : Fin 128, Ideal.tanh (v20 (ix2 p k) * bnScale st gb k + bnShift st gb k) * v31 (ix2 k q)) := by
  unfold k1_pay1
  simp only [shapeCast_self]
  refine (congrArg Ideal.tanh (congrArg₂ (· + ·) (product_apply v27 v28 p q) (product_apply _ v31 p q))).trans ?_
  refine congrArg Ideal.tanh (congrArg (_ + ·) (Finset.sum_congr rfl fun k _ => congrArg (· * v31 (ix2 k q)) ?_))
  refine (congrArg Ideal.tanh (congrArg₂ (· + ·) (congrArg (v20 (ix2 p k) * ·) (broadcastTo_1b_ab_apply _ _ p k))
    (broadcastTo_1b_ab_apply _ _ p k))).trans ?_
  refine congrArg Ideal.tanh (congrArg₂ (· + ·) (congrArg (v20 (ix2 p k) * ·) ?_) ?_)
  · rw [bnScale, bnVar, bnMean, ← h0 k, ← h4 k, ← h10 k, ← inv_eq]; rfl
  · rw [bnShift, bnScale, bnVar, bnMean, ← h0 k, ← h4 k, ← h10 k, ← h16 k, ← inv_eq]; rfl

/-! ## The body's loads -/

theorem zero_off : (![0, 0] : Fin 2 → Nat) = fun _ => 0 := funext fun a => by fin_cases a <;> rfl

/-- Row 0 of an [8,128] buffer, loaded as a [1,128] vector. -/
theorem load_row0 (x : Vec Ideal S8x128 .f32) (k : Fin 128) :
    View.ld x r1_0 (ix2 (0 : Fin 1) k) = x (ix2 (0 : Fin 8) k) := by
  show x (r1_0.idx (ix2 (0 : Fin 1) k)) = _
  refine congrArg x (funext fun a => Fin.ext ?_)
  match a with
  | ⟨0, _⟩ => rfl
  | ⟨1, _⟩ => show 0 + 1 * k.val = k.val; omega

/-- Row 1 of an [8,128] buffer, loaded as a [1,128] vector. -/
theorem load_row1 (x : Vec Ideal S8x128 .f32) (k : Fin 128) :
    View.ld x r1_1 (ix2 (0 : Fin 1) k) = x (ix2 (1 : Fin 8) k) := by
  show x (r1_1.idx (ix2 (0 : Fin 1) k)) = _
  refine congrArg x (funext fun a => Fin.ext ?_)
  match a with
  | ⟨0, _⟩ => rfl
  | ⟨1, _⟩ => show 0 + 1 * k.val = k.val; omega

/-! ## What the body leaves in the output block -/

/-- With the `h` block and the seq_self block holding rows `ρ p` of their arrays, entry (p, q) of the output
    block is the specification's value at row `ρ p`, column `q`. -/
theorem block_apply (h self : A2 10000 128) (x0 x1 : Vec Ideal S1000x128 .f32) (x2 x3 : Vec Ideal S128x128 .f32)
    (x4 x5 : Vec Ideal S8x128 .f32) (ρ : Fin 1000 → Fin 10000)
    (hx0 : ∀ (p : Fin 1000) (k : Fin 128), x0 (ix2 p k) = h (ix2 (ρ p) k))
    (hx1 : ∀ (p : Fin 1000) (k : Fin 128), x1 (ix2 p k) = self (ix2 (ρ p) k))
    (p : Fin 1000) (q : Fin 128) :
    out1_6 x0 x1 x2 x3 x4 x5 (ix2 p q) = bnAt h self x2 x3 x4 x5 (ρ p) q := by
  unfold out1_6
  rw [View.canon_unit_zero zero_off]
  simp only [View.ld_unit_zero (S := S1000x128) zero_off, View.ld_unit_zero (S := S128x128) zero_off]
  rw [body_apply x4 x5 _ _ _ _ x0 x1 x2 x3 (load_row0 x4) (load_row1 x4) (load_row0 x5) (load_row1 x5) p q]
  unfold bnAt
  simp only [hx0, hx1]

variable (V : (c : Dev nD) → (b : Ref sig .tc) → Buf (Elt Ideal) ((c : Thread nD τ).loc b))

/-! ## The blocks the pipeline stages -/

/-- The windows' index maps over the 10 grid points: the three [1000,128] windows sit at row block `t`; the four
    small windows are whole at every point. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of row block `t`: row `1000 t + p` of the array. -/
def rowOf (t : Fin cfg1.N) (p : Fin 1000) : Fin 10000 :=
  ⟨1000 * t.val + p.val, by have := t.isLt; have : cfg1.N = 10 := N_1; have := p.isLt; omega⟩

/-- The `h` window's block at point `t` holds rows `1000 t …` of its array. -/
theorem h_block (c : Dev nD) (t : Fin cfg1.N) (p : Fin 1000) (k : Fin 128) :
    iblk1 V c 0 t (ix2 p k) = V c main_call0_v10_0 (ix2 (rowOf t p) k) := by
  obtain ⟨e0, e1, -⟩ := block_index t
  show V c main_call0_v10_0 (((cfg1.win 0).blk t).view.emb (ix2 p k)) = _
  refine congrArg (V c main_call0_v10_0) (funext fun a => Fin.ext ?_)
  match a with
  | ⟨0, _⟩ => show win1_0.index t (0 : Fin 2) * 1000 + 1 * p.val = 1000 * t.val + p.val; omega
  | ⟨1, _⟩ => show win1_0.index t (1 : Fin 2) * 128 + 1 * k.val = k.val; omega

/-- The seq_self window's block at point `t` holds rows `1000 t …` of its array. -/
theorem self_block (c : Dev nD) (t : Fin cfg1.N) (p : Fin 1000) (k : Fin 128) :
    iblk1 V c 1 t (ix2 p k) = V c main_arg0 (ix2 (rowOf t p) k) := by
  obtain ⟨-, -, e0, e1, -⟩ := block_index t
  show V c main_arg0 (((cfg1.win 1).blk t).view.emb (ix2 p k)) = _
  refine congrArg (V c main_arg0) (funext fun a => Fin.ext ?_)
  match a with
  | ⟨0, _⟩ => show win1_1.index t (0 : Fin 2) * 1000 + 1 * p.val = 1000 * t.val + p.val; omega
  | ⟨1, _⟩ => show win1_1.index t (1 : Fin 2) * 128 + 1 * k.val = k.val; omega

/-- The first weight matrix is staged whole at every point. -/
theorem w2at_whole (c : Dev nD) (t : Fin cfg1.N) : iblk1 V c 2 t = V c main_call0_v2 := by
  obtain ⟨-, -, -, -, e0, e1, -⟩ := block_index t
  funext y
  show V c main_call0_v2 (((cfg1.win 2).blk t).view.emb y) = _
  refine congrArg (V c main_call0_v2) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second weight matrix is staged whole at every point. -/
theorem w2bt_whole (c : Dev nD) (t : Fin cfg1.N) : iblk1 V c 3 t = V c main_call0_v4 := by
  obtain ⟨-, -, -, -, -, -, e0, e1, -⟩ := block_index t
  funext y
  show V c main_call0_v4 (((cfg1.win 3).blk t).view.emb y) = _
  refine congrArg (V c main_call0_v4) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The statistics array is staged whole at every point. -/
theorem stats_whole (c : Dev nD) (t : Fin cfg1.N) : iblk1 V c 4 t = V c main_call0_v10_1 := by
  obtain ⟨-, -, -, -, -, -, -, -, e0, e1, -⟩ := block_index t
  funext y
  show V c main_call0_v10_1 (((cfg1.win 4).blk t).view.emb y) = _
  refine congrArg (V c main_call0_v10_1) (funext fun a => Fin.ext ?_)
  match a with
  | ⟨0, _⟩ => show win1_4.index t (0 : Fin 2) * 8 + 1 * (y 0).val = (y 0).val; omega
  | ⟨1, _⟩ => show win1_4.index t (1 : Fin 2) * 128 + 1 * (y 1).val = (y 1).val; omega

/-- The gamma/beta array is staged whole at every point. -/
theorem gb_whole (c : Dev nD) (t : Fin cfg1.N) : iblk1 V c 5 t = V c main_call0_v9 := by
  obtain ⟨-, -, -, -, -, -, -, -, -, -, e0, e1, -⟩ := block_index t
  funext y
  show V c main_call0_v9 (((cfg1.win 5).blk t).view.emb y) = _
  refine congrArg (V c main_call0_v9) (funext fun a => Fin.ext ?_)
  match a with
  | ⟨0, _⟩ => show win1_5.index t (0 : Fin 2) * 8 + 1 * (y 0).val = (y 0).val; omega
  | ⟨1, _⟩ => show win1_5.index t (1 : Fin 2) * 128 + 1 * (y 1).val = (y 1).val; omega

/-! ## What each point writes back, and the array after the run -/

/-- Point `t` writes back block `t` of the specification's array. -/
theorem written_back (c : Dev nD) (t : Fin cfg1.N) :
    (dat1 V c).flushed 6 t = ((cfg1.win 6).blk t).view.read (Elt Ideal)
      (bn (V c main_call0_v10_0) (V c main_arg0) (V c main_call0_v2) (V c main_call0_v4) (V c main_call0_v10_1) (V c main_call0_v9)) := by
  show (cfg1.win 6).cut (grid1.coords t) ((dat1 V c).after 6 t) = _
  rw [after1_6, w2at_whole, w2bt_whole, stats_whole, gb_whole]
  obtain ⟨-, -, -, -, -, -, -, -, -, -, -, -, e0, e1⟩ := block_index t
  funext j
  obtain ⟨p, q, rfl⟩ : ∃ (p : Fin 1000) (q : Fin 128), j = ix2 p q := ⟨j 0, j 1, eq_ix2 j⟩
  refine (block_apply (V c main_call0_v10_0) (V c main_arg0) (iblk1 V c 0 t) (iblk1 V c 1 t) (V c main_call0_v2)
    (V c main_call0_v4) (V c main_call0_v10_1) (V c main_call0_v9) (rowOf t) (h_block V c t) (self_block V c t) p q).trans ?_
  have er : (((cfg1.win 6).blk t).view.emb (ix2 p q)) 0 = rowOf t p :=
    Fin.ext (by show win1_6.index t (0 : Fin 2) * 1000 + 1 * p.val = 1000 * t.val + p.val; omega)
  have ec : (((cfg1.win 6).blk t).view.emb (ix2 p q)) 1 = q :=
    Fin.ext (by show win1_6.index t (1 : Fin 2) * 128 + 1 * q.val = q.val; omega)
  exact (congrArg₂ (bnAt (V c main_call0_v10_0) (V c main_arg0) (V c main_call0_v2) (V c main_call0_v4)
    (V c main_call0_v10_1) (V c main_call0_v9)) er ec).symm

/-- An index of the array is in point `t`'s block iff each coordinate is in the block's range on its axis. -/
theorem mem_block (t : Fin cfg1.N) (i : S10000x128.Idx) :
    i ∈ ((cfg1.win 6).blk t).view.set ↔ ∀ a : Fin 2, win1_6.index t a * S1000x128.size a ≤ (i a).val
      ∧ (i a).val < win1_6.index t a * S1000x128.size a + S1000x128.size a := by
  show i ∈ ((View.whole main_v0).slice (win1_6.rect t)).set ↔ _
  rw [View.set_slice_whole, Rect.mem_set_unit]
  exact Iff.rfl

/-- Row `r` of the array lies in the block of point `r / 1000`, which is written back. -/
theorem rows_covered (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 10 := N_1
  obtain ⟨t, ht⟩ : ∃ t : Fin cfg1.N, t.val = (i 0).val / 1000 := ⟨⟨(i 0).val / 1000, by omega⟩, rfl⟩
  obtain ⟨-, -, -, -, -, -, -, -, -, -, -, -, e0, e1⟩ := block_index t
  refine ⟨t, flush1_6 t, ?_⟩
  rw [mem_block]
  intro a
  match a with
  | ⟨0, _⟩ =>
    show win1_6.index t (0 : Fin 2) * 1000 ≤ (i 0).val ∧ (i 0).val < win1_6.index t (0 : Fin 2) * 1000 + 1000
    omega
  | ⟨1, _⟩ =>
    show win1_6.index t (1 : Fin 2) * 128 ≤ (i 1).val ∧ (i 1).val < win1_6.index t (1 : Fin 2) * 128 + 128
    omega

/-- The output after the run, as one function of the entry contents of the six input arrays. -/
theorem out_eq (c : Dev nD) :
    (dat1 V c).arrAt 6 cfg1.N
      = bn (V c main_call0_v10_0) (V c main_arg0) (V c main_call0_v2) (V c main_call0_v4) (V c main_call0_v10_1) (V c main_call0_v9) :=
  (dat1 V c).arrAt_eq_of_cover 6 _ (fun t _ => written_back V c t) rows_covered

end Cert.KernelIdeal.R1

end
-- ==== Proof.KValue.lean ====
/-
  The kernel program's result, read as mathematics at the ideal instance: the two regions' values composed through
  the buffers that carry them (the matrix h and its column statistics from the first region into the second) and
  through the host operations that prepared the weights, it is `Spec.kernelSpec` of the seven argument arrays.
-/
import proofs.«131860_g61323543053001_cont_9to1c4b_809_4_alg».proof.Proof.Spec
import proofs.«131860_g61323543053001_cont_9to1c4b_809_4_alg».proof.Proof.KRun
import proofs.«131860_g61323543053001_cont_9to1c4b_809_4_alg».proof.Proof.KHost
import proofs.«131860_g61323543053001_cont_9to1c4b_809_4_alg».proof.Proof.KR0
import proofs.«131860_g61323543053001_cont_9to1c4b_809_4_alg».proof.Proof.KR1

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.Spec

variable (m : (ℓ : Loc nD τ sig) → Buf (Elt Ideal) ℓ) (ρ : Dev nD → PrngReg)

/-- The launch contents of the seven arguments on core `c`. -/
abbrev self_ (c : Dev nD) : A2 10000 128 := m ((c : Thread nD τ).loc main_arg0)
abbrev seq_ (c : Dev nD) : A2 10000 128 := m ((c : Thread nD τ).loc main_arg1)
abbrev adj_ (c : Dev nD) : A2 10000 10000 := m ((c : Thread nD τ).loc main_arg2)
abbrev w1_ (c : Dev nD) : A2 128 128 := m ((c : Thread nD τ).loc main_arg3)
abbrev w2_ (c : Dev nD) : A2 128 256 := m ((c : Thread nD τ).loc main_arg4)
abbrev gamma_ (c : Dev nD) : A1 128 := m ((c : Thread nD τ).loc main_arg5)
abbrev beta_ (c : Dev nD) : A1 128 := m ((c : Thread nD τ).loc main_arg6)

/-! ## What the second region finds in its six input arrays -/

/-- The matrix the first region wrote, at W1ᵀ as the host left it. -/
theorem V2_h (c : Dev nD) :
    V2 m ρ c main_call0_v10_0 = mm (adj_ m c) (seq_ m c) (V1 m ρ c main_call0_v0) := by
  refine (W2_arr m ρ c 3).trans ?_
  rw [R0.h_eq (V1 m ρ) c, KHost.V1_arg2, KHost.V1_arg1]

/-- The statistics array the first region wrote. -/
theorem V2_st (c : Dev nD) : V2 m ρ c main_call0_v10_1 = (dat0 (V1 m ρ) c).arrAt 4 cfg0.N :=
  W2_arr m ρ c 4

/-- seq_self, the two halves of W2 and the gamma/beta array pass the first region untouched. -/
theorem V2_self (c : Dev nD) : V2 m ρ c main_arg0 = self_ m c :=
  (W2_of_ne m ρ c main_arg0 (by decide)).trans (KHost.V1_arg0 m ρ c)
theorem V2_w2at (c : Dev nD) : V2 m ρ c main_call0_v2 = V1 m ρ c main_call0_v2 :=
  W2_of_ne m ρ c main_call0_v2 (by decide)
theorem V2_w2bt (c : Dev nD) : V2 m ρ c main_call0_v4 = V1 m ρ c main_call0_v4 :=
  W2_of_ne m ρ c main_call0_v4 (by decide)
theorem V2_gb (c : Dev nD) : V2 m ρ c main_call0_v9 = V1 m ρ c main_call0_v9 :=
  W2_of_ne m ρ c main_call0_v9 (by decide)

/-! ## The pieces of the second region's formula are the kernel grouping's -/

/-- (adj @ seq) @ W1ᵀ with W1ᵀ read through the transpose. -/
theorem mmAt_eq (c : Dev nD) (r : Fin 10000) (k : Fin 128) :
    mmAt (adj_ m c) (seq_ m c) (V1 m ρ c main_call0_v0) r k = hK (adj_ m c) (seq_ m c) (w1_ m c) r k := by
  unfold mmAt hK
  exact Finset.sum_congr rfl fun k' _ => by rw [KHost.w1t_apply m ρ c k' k]

theorem h_at (c : Dev nD) (r : Fin 10000) (k : Fin 128) :
    (V2 m ρ c main_call0_v10_0 : A2 10000 128) (ix2 r k) = hK (adj_ m c) (seq_ m c) (w1_ m c) r k := by
  rw [V2_h]
  exact mmAt_eq m ρ c r k

theorem mean_eq (c : Dev nD) (k : Fin 128) :
    bnMean (V2 m ρ c main_call0_v10_1) k = meanK (hK (adj_ m c) (seq_ m c) (w1_ m c)) k := by
  unfold bnMean meanK sumK
  rw [V2_st, R0.stats0 (V1 m ρ) c k, KHost.V1_arg2, KHost.V1_arg1]
  exact congrArg (· * invN) (Finset.sum_congr rfl fun t _ => Finset.sum_congr rfl fun r _ => mmAt_eq m ρ c (row t r) k)

theorem var_eq (c : Dev nD) (k : Fin 128) :
    bnVar (V2 m ρ c main_call0_v10_1) k = varK (hK (adj_ m c) (seq_ m c) (w1_ m c)) k := by
  unfold bnVar varK sqsumK
  rw [mean_eq, V2_st, R0.stats1 (V1 m ρ) c k, KHost.V1_arg2, KHost.V1_arg1]
  refine congrArg (fun s => s * invN - _) ?_
  exact Finset.sum_congr rfl fun t _ => Finset.sum_congr rfl fun r _ => by rw [mmAt_eq m ρ c (row t r) k]

theorem scale_eq (c : Dev nD) (k : Fin 128) :
    bnScale (V2 m ρ c main_call0_v10_1) (V2 m ρ c main_call0_v9) k
      = scaleK (hK (adj_ m c) (seq_ m c) (w1_ m c)) (gamma_ m c) k := by
  unfold bnScale scaleK
  rw [var_eq, V2_gb, KHost.gb0_apply m ρ c k]

theorem shift_eq (c : Dev nD) (k : Fin 128) :
    bnShift (V2 m ρ c main_call0_v10_1) (V2 m ρ c main_call0_v9) k
      = shiftK (hK (adj_ m c) (seq_ m c) (w1_ m c)) (gamma_ m c) (beta_ m c) k := by
  unfold bnShift shiftK
  rw [mean_eq, scale_eq, V2_gb, KHost.gb1_apply m ρ c k]

/-- The second region's formula on what it finds is the kernel's grouping of the whole computation. -/
theorem value_at (c : Dev nD) (r : Fin 10000) (q : Fin 128) :
    bnAt (V2 m ρ c main_call0_v10_0) (V2 m ρ c main_arg0) (V2 m ρ c main_call0_v2) (V2 m ρ c main_call0_v4)
        (V2 m ρ c main_call0_v10_1) (V2 m ρ c main_call0_v9) r q
      = outK (self_ m c) (w2_ m c) (actK (hK (adj_ m c) (seq_ m c) (w1_ m c)) (gamma_ m c) (beta_ m c)) r q := by
  unfold bnAt outK
  refine congrArg Ideal.tanh (congrArg₂ (· + ·) ?_ ?_)
  · exact Finset.sum_congr rfl fun k _ => by rw [V2_self, V2_w2at, KHost.w2at_apply m ρ c k q]
  · refine Finset.sum_congr rfl fun k _ => ?_
    rw [h_at, scale_eq, shift_eq, V2_w2bt, KHost.w2bt_apply m ρ c k q]
    rfl

/-- The result buffer after the run is `kernelSpec` of the launch contents of the arguments. -/
theorem value (c : Dev nD) :
    W3 m ρ c (Proc.devRef .tc main_v0)
      = kernelSpec (self_ m c) (seq_ m c) (adj_ m c) (w1_ m c) (w2_ m c) (gamma_ m c) (beta_ m c) := by
  refine (W3_arr m ρ c 6).trans ?_
  rw [R1.out_eq (V2 m ρ) c]
  funext i
  exact value_at m ρ c (i 0) (i 1)

/-- The kernel program's run, read: the result array at `kernelSpec` of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v0)
          = kernelSpec (self_ m c) (seq_ m c) (adj_ m c) (w1_ m c) (w2_ m c) (gamma_ m c) (beta_ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (value m ρ c), (h c).2⟩) (KRun.run_result (F := Ideal) m ρ)

end Cert.KernelIdeal.KValue

end
-- ==== Proof.RefTerm.lean ====
/-
  The reference program's operations composed: what @main's result buffer holds, as one pure term of the seven
  argument arrays. The two module-local functions (the variance and the select it ends in) are written at their call
  site; each named stage is the term of one buffer of the program, so that the run reads the result buffer as
  `refTerm` by unfolding, and the stages can be read one at a time as mathematics.
-/
import proofs.«131860_g61323543053001_cont_9to1c4b_809_4_alg».proof.ReferenceIdeal

noncomputable section

namespace Cert.ReferenceIdeal.RefValue

open Cert.ReferenceIdeal Idealize.ShloMosaic
open Facts₀ Facts

variable {F : FTy → Type} [FloatOps F] [Facts]

/-- `%0`: W1 transposed. -/
def tW1t (a3 : FVec F S128x128 .f32) : FVec F S128x128 .f32 :=
  transpose S128x128 [1, 0] a3 transposes_S128x128_S128x128_1_0

/-- `%1`: seq @ W1ᵀ. -/
def tXW (a1 : FVec F S10000x128 .f32) (a3 : FVec F S128x128 .f32) : FVec F S10000x128 .f32 :=
  Host.dotGeneral dot_S10000x128_S128x128_S10000x128_1_0_0_1_n_n none a1 (tW1t a3)

/-- `%2`: h = adj @ (seq @ W1ᵀ). -/
def tH (a1 : FVec F S10000x128 .f32) (a2 : FVec F S10000x10000 .f32) (a3 : FVec F S128x128 .f32) :
    FVec F S10000x128 .f32 :=
  Host.dotGeneral dot_S10000x10000_S10000x128_S10000x128_1_0_0_1_n_n none a2 (tXW a1 a3)

/-- `%3` (and the variance's `%0`, `%9`): the column sums of an array, from the zero word. -/
def tSum (x : FVec F S10000x128 .f32) : FVec F S128 .f32 :=
  Host.reduceAdd x (constant S_ .f32 0x00000000#32) reducesTo_S10000x128_S128_d0 h_S_

/-- `%6` (and the variance's `%3`): the column means, the sums over the word of 10000.0. -/
def tMean (h : FVec F S10000x128 .f32) : FVec F S1x128 .f32 :=
  Host.divf (broadcastInDim S1x128 ![1] bcast_S128_S1x128_1 (tSum h))
    (broadcastInDim S1x128 ![] bcast_S_S1x128 (constant S_ .f32 0x461C4000#32))

/-- `%9` (and the variance's `%5`): h minus its column means. -/
def tDev (h : FVec F S10000x128 .f32) : FVec F S10000x128 .f32 :=
  subf h (broadcastInDim S10000x128 ![0, 1] bcast_S1x128_S10000x128_0_1 (tMean h))

/-- The variance's `%8`: 10000.0 minus the converted integer zero (the degrees of freedom). -/
def tCnt : FVec F S_ .f32 :=
  subf (constant S_ .f32 0x461C4000#32) (sitofp (F := F) .f32 (constantI S_ 32 0#32))

/-- The variance's `%12`: the column sums of the squared deviations over that count. -/
def tVar0 (h : FVec F S10000x128 .f32) : FVec F S1x128 .f32 :=
  Host.divf (broadcastInDim S1x128 ![1] bcast_S128_S1x128_1 (tSum (mulf (tDev h) (tDev h))))
    (broadcastInDim S1x128 ![] bcast_S_S1x128 (tCnt (F := F)))

/-- `%7`: the variance, selected against the NaN word where the count is not positive. -/
def tVar (h : FVec F S10000x128 .f32) : FVec F S1x128 .f32 :=
  select (broadcastInDim S1x128 ![] bcast_S_S1x128 (cmpf (F := F) .ogt (tCnt (F := F)) (constant S_ .f32 0x00000000#32)))
    (tVar0 h)
    (broadcastInDim S1x128 ![] bcast_S_S1x128 (id (constant S_ .f32 0x7FC00000#32)))

/-- `%12`: the square root of the variance plus the epsilon word. -/
def tStd (h : FVec F S10000x128 .f32) : FVec F S1x128 .f32 :=
  Host.sqrt (addf (tVar h) (broadcastInDim S1x128 ![] bcast_S_S1x128 (constant S_ .f32 0x3727C5AC#32)))

/-- `%21`: tanh of the normalised h scaled by gamma and shifted by beta. -/
def tAct (h : FVec F S10000x128 .f32) (a5 a6 : FVec F S128 .f32) : FVec F S10000x128 .f32 :=
  Host.tanh (addf
    (mulf (Host.divf (tDev h) (broadcastInDim S10000x128 ![0, 1] bcast_S1x128_S10000x128_0_1 (tStd h)))
      (broadcastInDim S10000x128 ![0, 1] bcast_S1x128_S10000x128_0_1 (broadcastInDim S1x128 ![1] bcast_S128_S1x128_1 a5)))
    (broadcastInDim S10000x128 ![0, 1] bcast_S1x128_S10000x128_0_1 (broadcastInDim S1x128 ![1] bcast_S128_S1x128_1 a6)))

/-- `%22`: seq_self and the activations side by side. -/
def tCat (a0 t : FVec F S10000x128 .f32) : FVec F S10000x256 .f32 :=
  concatenate S10000x256 1 [⟨S10000x128, a0⟩, ⟨S10000x128, t⟩] concatenates_S10000x128_S10000x128_S10000x256_d1

/-- `%23`: W2 transposed. -/
def tW2t (a4 : FVec F S128x256 .f32) : FVec F S256x128 .f32 :=
  transpose S256x128 [1, 0] a4 transposes_S128x256_S256x128_1_0

/-- `%25`: tanh of the concatenation times W2ᵀ. -/
def tOut (a0 : FVec F S10000x128 .f32) (a4 : FVec F S128x256 .f32) (t : FVec F S10000x128 .f32) :
    FVec F S10000x128 .f32 :=
  Host.tanh (Host.dotGeneral dot_S10000x256_S256x128_S10000x128_1_0_0_1_n_n none (tCat a0 t) (tW2t a4))

/-- What @main's result buffer holds, of the seven argument arrays. -/
def refTerm (a0 a1 : FVec F S10000x128 .f32) (a2 : FVec F S10000x10000 .f32) (a3 : FVec F S128x128 .f32)
    (a4 : FVec F S128x256 .f32) (a5 a6 : FVec F S128 .f32) : FVec F S10000x128 .f32 :=
  tOut a0 a4 (tAct (tH a1 a2 a3) a5 a6)

end Cert.ReferenceIdeal.RefValue

end
-- ==== Proof.RefRun.lean ====
/-
  The reference program's run: @main is a straight line of fifty-two host operations (its own twenty-nine and the
  twenty-three of the two functions it calls, written at the call site over the call's buffers), so every weakly fair
  execution terminates with each buffer at the fold of the operations' results over the launch contents. Read at the
  result buffer the fold is `refTerm` of the seven argument arrays; read at an argument buffer it is the launch
  contents, no operation writing there.
-/
import proofs.«131860_g61323543053001_cont_9to1c4b_809_4_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F] [Facts]

/-- @main's operations in order, the two calls unfolded at their site: the first ten are @main's own (the two
    products, the column sums, the mean, the integer zero); the next twenty are the variance's, into the buffers of
    the record `main_call0` (the mean again, the squared deviations, their column sums over the count, the test of
    the count against zero, the NaN word); the next three are the select's, into `main_call0_call0`'s, the last of
    them writing `main_v7`; the remaining nineteen are @main's own again. -/
abbrev ops : List (HloOp τ sig (Elt F)) :=
  [ unary main_arg3 main_v0 ((transpose S128x128 [1, 0] · transposes_S128x128_S128x128_1_0) : (⟨S128x128, .f32⟩ : BufTy).Contents (Elt F) → (⟨S128x128, .f32⟩ : BufTy).Contents (Elt F)),
    binary main_arg1 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg2 main_v1 main_v2 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x00000000#32),
    binary main_v2 main_cst main_v3 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    unary main_v3 main_v4 (broadcastInDim S1x128 ![1] bcast_S128_S1x128_1 : (⟨S128, .f32⟩ : BufTy).Contents (Elt F) → (⟨S1x128, .f32⟩ : BufTy).Contents (Elt F)),
    nullary main_cst_0 (constant S_ .f32 0x461C4000#32),
    unary main_cst_0 main_v5 (broadcastInDim S1x128 ![] bcast_S_S1x128 : (⟨S_, .f32⟩ : BufTy).Contents (Elt F) → (⟨S1x128, .f32⟩ : BufTy).Contents (Elt F)),
    binary main_v4 main_v5 main_v6 (Host.divf : (⟨S1x128, .f32⟩ : BufTy).Contents (Elt F) → (⟨S1x128, .f32⟩ : BufTy).Contents (Elt F) → (⟨S1x128, .f32⟩ : BufTy).Contents (Elt F)),
    nullary main_c (constantI S_ 32 0#32),
    TRef.nullary main_call0.cst (constant S_ .f32 0x00000000#32),
    TRef.binary (.of main_v2) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v2) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v9 main_call0.v10 (broadcastInDim S1x128 ![1] bcast_S128_S1x128_1),
    TRef.unary main_call0.v8 main_call0.v11 (broadcastInDim S1x128 ![] bcast_S_S1x128),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x128 ![] bcast_S_S1x128),
    TRef.ternary main_call0.v13 main_call0.v12 main_call0.call0.v1 main_call0.call0.v2 (fun p a b => select (broadcastInDim S1x128 ![] bcast_S_S1x128 p) a b),
    unary main_v6 main_v8 (broadcastInDim S10000x128 ![0, 1] bcast_S1x128_S10000x128_0_1 : (⟨S1x128, .f32⟩ : BufTy).Contents (Elt F) → (⟨S10000x128, .f32⟩ : BufTy).Contents (Elt F)),
    binary main_v2 main_v8 main_v9 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v10 (broadcastInDim S1x128 ![] bcast_S_S1x128 : (⟨S_, .f32⟩ : BufTy).Contents (Elt F) → (⟨S1x128, .f32⟩ : BufTy).Contents (Elt F)),
    binary main_v7 main_v10 main_v11 (addf : (⟨S1x128, .f32⟩ : BufTy).Contents (Elt F) → (⟨S1x128, .f32⟩ : BufTy).Contents (Elt F) → (⟨S1x128, .f32⟩ : BufTy).Contents (Elt F)),
    unary main_v11 main_v12 (Host.sqrt : (⟨S1x128, .f32⟩ : BufTy).Contents (Elt F) → (⟨S1x128, .f32⟩ : BufTy).Contents (Elt F)),
    unary main_v12 main_v13 (broadcastInDim S10000x128 ![0, 1] bcast_S1x128_S10000x128_0_1 : (⟨S1x128, .f32⟩ : BufTy).Contents (Elt F) → (⟨S10000x128, .f32⟩ : BufTy).Contents (Elt F)),
    binary main_v9 main_v13 main_v14 (Host.divf : (⟨S10000x128, .f32⟩ : BufTy).Contents (Elt F) → (⟨S10000x128, .f32⟩ : BufTy).Contents (Elt F) → (⟨S10000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S10000x128 ![0, 1] bcast_S1x128_S10000x128_0_1 : (⟨S1x128, .f32⟩ : BufTy).Contents (Elt F) → (⟨S10000x128, .f32⟩ : BufTy).Contents (Elt F)),
    binary main_v14 main_v16 main_v17 (mulf : (⟨S10000x128, .f32⟩ : BufTy).Contents (Elt F) → (⟨S10000x128, .f32⟩ : BufTy).Contents (Elt F) → (⟨S10000x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    unary main_v18 main_v19 (broadcastInDim S10000x128 ![0, 1] bcast_S1x128_S10000x128_0_1 : (⟨S1x128, .f32⟩ : BufTy).Contents (Elt F) → (⟨S10000x128, .f32⟩ : BufTy).Contents (Elt F)),
    binary main_v17 main_v19 main_v20 (addf : (⟨S10000x128, .f32⟩ : BufTy).Contents (Elt F) → (⟨S10000x128, .f32⟩ : BufTy).Contents (Elt F) → (⟨S10000x128, .f32⟩ : BufTy).Contents (Elt F)),
    unary main_v20 main_v21 (Host.tanh : (⟨S10000x128, .f32⟩ : BufTy).Contents (Elt F) → (⟨S10000x128, .f32⟩ : BufTy).Contents (Elt F)),
    binary main_arg0 main_v21 main_v22 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    unary main_arg4 main_v23 ((transpose S256x128 [1, 0] · transposes_S128x256_S256x128_1_0) : (⟨S128x256, .f32⟩ : BufTy).Contents (Elt F) → (⟨S256x128, .f32⟩ : BufTy).Contents (Elt F)),
    binary main_v22 main_v23 main_v24 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    unary main_v24 main_v25 (Host.tanh : (⟨S10000x128, .f32⟩ : BufTy).Contents (Elt F) → (⟨S10000x128, .f32⟩ : BufTy).Contents (Elt F)) ]

-- fifty-two binds re-associated: the rewrite under the chain recurses once per statement
set_option maxRecDepth 1024 in
/-- @main is that straight line: the two functions' definitions unfolded at their calls and the records at their
    fields, both sides are one chain of `hlo` steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., binary_bufs_sub .., unary_bufs_sub ..⟩

set_option maxHeartbeats 1000000 in
/-- The fold at the result buffer: each operation's result rewritten at its own buffer to its function's value and
    elsewhere to what was there, the composed term is `refTerm` by unfolding its stages (the typed references'
    transports are the identity at these literal buffers). -/
theorem out_eq (V : Valuation τ sig (Elt F)) :
    after ops V (main_v25 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-! No operation writes an argument buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of @main
    terminates with the result buffer at `refTerm` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v25)
          = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v25).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefValue

end
-- ==== Proof.RefRead.lean ====
/-
  The reference program's composed term, read as mathematics at the ideal instance: it is `Spec.refSpec` of the
  seven argument arrays.

  Each stage of the term is read at an index, one small lemma per stage, over variables of the literal array types:
  a plain matrix product as the sum over the contracted coordinate, a column reduction as the sum over the rows, the
  broadcasts and transposes as a change of coordinates, the concatenation by the half its column falls in. The
  theorem at the end composes them.
-/
import proofs.«131860_g61323543053001_cont_9to1c4b_809_4_alg».proof.Proof.Spec
import proofs.«131860_g61323543053001_cont_9to1c4b_809_4_alg».proof.Proof.RefTerm
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.Spec
open Facts₀ Facts

/-! ## A plain matrix product read at an index -/

section MatProd
variable {M K N : Nat} (D : DotDims ⟨2, ![M, K]⟩ ⟨2, ![K, N]⟩ ⟨2, ![M, N]⟩)

/-- The left operand's row coordinate is the result's row. -/
theorem lhs_row (hb : D.lhsBatch = []) (hn : D.lhsNonContracting = [0]) (j : (⟨2, ![M, N]⟩ : Shape).Idx) (k : D.contr.Idx) :
    (D.lhsIdx j k 0).val = (j 0).val := by
  unfold DotDims.lhsIdx
  rw [dif_neg (by rw [hb]; exact List.not_mem_nil), dif_pos (by rw [hn]; exact List.mem_singleton.2 rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn])

/-- The right operand's column coordinate is the result's column. -/
theorem rhs_col (hb : D.lhsBatch = []) (hb' : D.rhsBatch = []) (hn : D.lhsNonContracting = [0]) (hn' : D.rhsNonContracting = [1])
    (j : (⟨2, ![M, N]⟩ : Shape).Idx) (k : D.contr.Idx) :
    (D.rhsIdx j k 1).val = (j 1).val := by
  unfold DotDims.rhsIdx
  rw [dif_neg (by rw [hb']; exact List.not_mem_nil), dif_pos (by rw [hn']; exact List.mem_singleton.2 rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hb, hn, hn'])

/-- One contracting axis. -/
theorem contr_rank (hc : D.lhsContracting = [1]) : D.contr.rank = 1 := by rw [D.rank_contr, hc]; rfl

/-- Its extent is the operands' shared one. -/
theorem contr_size (hc : D.lhsContracting = [1]) : D.contr.size ⟨0, by rw [contr_rank D hc]; exact Nat.one_pos⟩ = K := by
  rw [D.size_contr 0 (by rw [hc]; exact Nat.one_pos), List.getElem_of_eq hc]
  rfl

/-- A [M,K] by [K,N] product, contracting the left operand's columns with the right operand's rows, at row `r` and
    column `c`: the sum over `k` of left (r, k) times right (k, c). -/
theorem matProd_apply (hc : D.lhsContracting = [1]) (hc' : D.rhsContracting = [0]) (hn : D.lhsNonContracting = [0])
    (hn' : D.rhsNonContracting = [1]) (hb : D.lhsBatch = []) (hb' : D.rhsBatch = [])
    (prec : Option ContractPrecision) (sched : HostSchedule)
    (x : FVec Ideal ⟨2, ![M, K]⟩ .f32) (y : FVec Ideal ⟨2, ![K, N]⟩ .f32) (r : Fin M) (c : Fin N) :
    FloatOps.dotGeneral D prec sched x y (ix2 r c) = ∑ k : Fin K, x (ix2 r k) * y (ix2 k c) := by
  have hr := contr_rank D hc
  have hs := contr_size D hc
  rw [Ideal.dotGeneral_apply]
  refine (Equiv.sum_comp (contrEquiv1 D K hr hs).symm _).symm.trans (Finset.sum_congr rfl fun k _ => ?_)
  have hl : D.lhsIdx (ix2 r c) ((contrEquiv1 D K hr hs).symm k) = ix2 r k := by
    funext a; apply Fin.ext
    match a with
    | ⟨0, _⟩ => exact lhs_row D hb hn _ _
    | ⟨1, _⟩ => exact (D.lhsIdx_val_of_single hc _ _).trans (contrEquiv1_symm_val D K hr hs k)
  have hr' : D.rhsIdx (ix2 r c) ((contrEquiv1 D K hr hs).symm k) = ix2 k c := by
    funext a; apply Fin.ext
    match a with
    | ⟨0, _⟩ => exact (D.rhsIdx_val_of_single hc' _ _).trans (contrEquiv1_symm_val D K hr hs k)
    | ⟨1, _⟩ => exact rhs_col D hb hb' hn hn' _ _
  rw [hl, hr']

end MatProd

/-! ## Layout operations at an index -/

variable [Facts]

/-- A [A,B] array transposed reads (p, q) at (q, p). -/
theorem transpose10_apply {A B : Nat} {α : Type} (x : (⟨2, ![A, B]⟩ : Shape).Idx → α)
    (h : (⟨2, ![A, B]⟩ : Shape).Transposes [1, 0] ⟨2, ![B, A]⟩) (p : Fin B) (q : Fin A) :
    transpose ⟨2, ![B, A]⟩ [1, 0] x h (ix2 p q) = x (ix2 q p) :=
  transpose_apply [1, 0] x h (ix2 p q) (ix2 q p) fun b => by
    match b with
    | ⟨0, _⟩ => rfl
    | ⟨1, _⟩ => rfl

/-- A [128] array as the one row of a [1,128] array. -/
theorem bcastRow_apply {α : Type} (x : S128.Idx → α) (q : Fin 128) :
    broadcastInDim S1x128 ![1] bcast_S128_S1x128_1 x (ix2 0 q) = x (ix1 q) :=
  broadcastInDim_apply _ _ x (ix2 0 q) (ix1 q) fun a => by
    match a with
    | ⟨0, _⟩ => rfl

/-- A scalar spread over a [1,128] array. -/
theorem bcastScalar_apply {α : Type} (x : S_.Idx → α) (j : S1x128.Idx) :
    broadcastInDim S1x128 ![] bcast_S_S1x128 x j = x ix0 :=
  broadcastInDim_apply _ _ x j ix0 fun a => a.elim0

/-- A [1,128] array's row repeated down 10000 rows. -/
theorem bcastRows_apply {α : Type} (x : S1x128.Idx → α) (r : Fin 10000) (q : Fin 128) :
    broadcastInDim S10000x128 ![0, 1] bcast_S1x128_S10000x128_0_1 x (ix2 r q) = x (ix2 0 q) :=
  broadcastInDim_apply _ _ x (ix2 r q) (ix2 0 q) fun a => by
    match a with
    | ⟨0, _⟩ => rfl
    | ⟨1, _⟩ => rfl

/-! ## The reference's stages at an index -/

/-- seq @ W1ᵀ at (j, c). -/
theorem tXW_apply (a1 : FVec Ideal S10000x128 .f32) (a3 : FVec Ideal S128x128 .f32) (j : Fin 10000) (c : Fin 128) :
    tXW a1 a3 (ix2 j c) = ∑ k : Fin 128, a1 (ix2 j k) * a3 (ix2 c k) := by
  unfold tXW tW1t
  simp only [Host.dotGeneral]
  rw [matProd_apply _ rfl rfl rfl rfl rfl rfl]
  exact Finset.sum_congr rfl fun k _ => by rw [transpose10_apply]

/-- h = adj @ (seq @ W1ᵀ) at (r, c). -/
theorem tH_apply (a1 : FVec Ideal S10000x128 .f32) (a2 : FVec Ideal S10000x10000 .f32) (a3 : FVec Ideal S128x128 .f32)
    (r : Fin 10000) (c : Fin 128) : tH a1 a2 a3 (ix2 r c) = hR a2 a1 a3 r c := by
  unfold tH hR
  simp only [Host.dotGeneral]
  rw [matProd_apply _ rfl rfl rfl rfl rfl rfl]
  exact Finset.sum_congr rfl fun j _ => by rw [tXW_apply]

/-- A column's sum, from the zero word. -/
theorem tSum_apply (x : FVec Ideal S10000x128 .f32) (q : Fin 128) :
    tSum x (ix1 q) = zero + ∑ r : Fin 10000, x (ix2 r q) := by
  have hR : S10000x128.Reduces [0] S128 := by decide
  unfold tSum Host.reduceAdd
  rw [Ideal.hostReduceAdd_def, Ideal.hostReduceAdd_single reducesTo_S10000x128_S128_d0 hR]
  refine congrArg₂ (· + ·) rfl (Finset.sum_congr rfl fun k _ => congrArg x ?_)
  funext a; apply Fin.ext
  match a with
  | ⟨0, _⟩ => rfl
  | ⟨1, _⟩ => rfl

/-! ## The host's pointwise operations at an index -/

/-- The host's quotient at an index. -/
theorem hostDivf_at {s : Shape} (a b : FVec Ideal s .f32) (i : s.Idx) : Host.divf a b i = Ideal.div (a i) (b i) := rfl

/-- The host's square root at an index. -/
theorem hostSqrt_at {s : Shape} (a : FVec Ideal s .f32) (i : s.Idx) : Host.sqrt a i = Ideal.sqrt (a i) := rfl

/-- The host's tanh at an index. -/
theorem hostTanh_at {s : Shape} (a : FVec Ideal s .f32) (i : s.Idx) : Host.tanh a i = Ideal.tanh (a i) := rfl

/-- A [10000,128] array by coordinates. -/
abbrev byCoords (x : FVec Ideal S10000x128 .f32) : M := fun r c => x (ix2 r c)

/-- The column means: (0 + sum) / 10000. -/
theorem tMean_apply (x : FVec Ideal S10000x128 .f32) (q : Fin 128) : tMean x (ix2 0 q) = meanR (byCoords x) q := by
  unfold tMean meanR
  rw [hostDivf_at, bcastRow_apply, bcastScalar_apply, tSum_apply]
  rfl

/-- An entry less its column's mean. -/
theorem tDev_apply (x : FVec Ideal S10000x128 .f32) (r : Fin 10000) (q : Fin 128) :
    tDev x (ix2 r q) = x (ix2 r q) - meanR (byCoords x) q := by
  unfold tDev
  rw [subf_apply, bcastRows_apply, tMean_apply]

/-- The variance's normaliser: 10000 less the converted integer zero. -/
theorem tCnt_apply : tCnt (F := Ideal) ix0 = cntR := rfl

/-- The column sums of the squared deviations over the normaliser. -/
theorem tVar0_apply (x : FVec Ideal S10000x128 .f32) (q : Fin 128) :
    tVar0 x (ix2 0 q)
      = Ideal.div (zero + ∑ r : Fin 10000, (x (ix2 r q) - meanR (byCoords x) q) * (x (ix2 r q) - meanR (byCoords x) q)) cntR := by
  unfold tVar0
  rw [hostDivf_at, bcastRow_apply, bcastScalar_apply, tSum_apply, tCnt_apply]
  refine congrArg₂ Ideal.div (congrArg₂ (· + ·) rfl (Finset.sum_congr rfl fun r _ => ?_)) rfl
  rw [mulf_apply, tDev_apply]

/-- The variance with its select against the NaN word. -/
theorem tVar_apply (x : FVec Ideal S10000x128 .f32) (q : Fin 128) : tVar x (ix2 0 q) = varR (byCoords x) q := by
  unfold tVar varR
  rw [select_apply, tVar0_apply, bcastScalar_apply, bcastScalar_apply, cmpf_apply, tCnt_apply, Ideal.cmpf_def]
  rfl

/-- The square root of the variance plus epsilon. -/
theorem tStd_apply (x : FVec Ideal S10000x128 .f32) (q : Fin 128) :
    tStd x (ix2 0 q) = Ideal.sqrt (varR (byCoords x) q + eps) := by
  unfold tStd
  rw [hostSqrt_at, addf_apply, tVar_apply, bcastScalar_apply]
  rfl

/-- tanh of the normalised entry scaled by gamma and shifted by beta. -/
theorem tAct_apply (x : FVec Ideal S10000x128 .f32) (a5 a6 : FVec Ideal S128 .f32) (r : Fin 10000) (q : Fin 128) :
    tAct x a5 a6 (ix2 r q) = actR (byCoords x) a5 a6 r q := by
  unfold tAct actR
  rw [hostTanh_at, addf_apply, mulf_apply, hostDivf_at, bcastRows_apply, bcastRows_apply, bcastRows_apply, bcastRow_apply,
    bcastRow_apply, tDev_apply, tStd_apply]

/-- seq_self and the activations side by side, at column k. -/
theorem tCat_apply (a0 t : FVec Ideal S10000x128 .f32) (r : Fin 10000) (k : Fin 256) :
    tCat a0 t (ix2 r k) = catR a0 (byCoords t) r k := by
  unfold tCat catR
  by_cases h : k.val < 128
  · rw [dif_pos h]
    exact concatenate_pair_apply_left 1 a0 t _ (ix2 r k) rfl (ix2 r ⟨k.val, h⟩) fun b => by
      match b with
      | ⟨0, _⟩ => rfl
      | ⟨1, _⟩ => rfl
  · rw [dif_neg h]
    exact concatenate_pair_apply_right 1 a0 t _ (ix2 r k) rfl rfl
      (ix2 r ⟨k.val - 128, by have := k.isLt; omega⟩)
      (fun b => by
        match b with
        | ⟨0, _⟩ => exact fun _ => rfl
        | ⟨1, _⟩ => exact fun hb => absurd rfl hb)
      (by show k.val - 128 + 128 = k.val; omega)

/-- W2 transposed reads (k, c) at (c, k). -/
theorem tW2t_apply (a4 : FVec Ideal S128x256 .f32) (k : Fin 256) (c : Fin 128) : tW2t a4 (ix2 k c) = a4 (ix2 c k) := by
  unfold tW2t
  rw [transpose10_apply]

/-- tanh of the concatenation times W2ᵀ. -/
theorem tOut_apply (a0 : FVec Ideal S10000x128 .f32) (a4 : FVec Ideal S128x256 .f32) (t : FVec Ideal S10000x128 .f32)
    (r : Fin 10000) (c : Fin 128) : tOut a0 a4 t (ix2 r c) = outR a0 a4 (byCoords t) r c := by
  unfold tOut outR
  rw [hostTanh_at]
  simp only [Host.dotGeneral]
  rw [matProd_apply _ rfl rfl rfl rfl rfl rfl]
  exact congrArg Ideal.tanh (Finset.sum_congr rfl fun k _ => by rw [tCat_apply, tW2t_apply])

/-- The composed term of the reference's operations is the reference's grouping of the computation. -/
theorem refTerm_eq (a0 a1 : FVec Ideal S10000x128 .f32) (a2 : FVec Ideal S10000x10000 .f32) (a3 : FVec Ideal S128x128 .f32)
    (a4 : FVec Ideal S128x256 .f32) (a5 a6 : FVec Ideal S128 .f32) :
    refTerm (F := Ideal) a0 a1 a2 a3 a4 a5 a6 = refSpec a0 a1 a2 a3 a4 a5 a6 := by
  funext i
  obtain ⟨r, q, rfl⟩ : ∃ (r : Fin 10000) (q : Fin 128), i = ix2 r q := ⟨i 0, i 1, eq_ix2 i⟩
  have hH : byCoords (tH a1 a2 a3) = hR a2 a1 a3 := by
    funext r c
    exact tH_apply a1 a2 a3 r c
  have hAct : byCoords (tAct (tH a1 a2 a3) a5 a6) = actR (hR a2 a1 a3) a5 a6 := by
    funext r c
    show tAct (tH a1 a2 a3) a5 a6 (ix2 r c) = _
    rw [tAct_apply, hH]
  unfold refTerm refSpec
  rw [tOut_apply, hAct]

end Cert.ReferenceIdeal.RefValue

end
-- ==== Proof.RefValue.lean ====
/-
  The reference program's run, read: every weakly fair execution of its @main ends with the result array at
  `Spec.refSpec` of the argument arrays, the arguments unchanged. The run leaves the result buffer at the operations'
  composed term `refTerm` of the launch contents (`run_term`), and at the ideal instance that term is `refSpec` of
  them, index by index (`refTerm_eq`).
-/
import proofs.«131860_g61323543053001_cont_9to1c4b_809_4_alg».proof.Proof.Spec
import proofs.«131860_g61323543053001_cont_9to1c4b_809_4_alg».proof.ReferenceIdeal
import proofs.«131860_g61323543053001_cont_9to1c4b_809_4_alg».proof.Proof.Gen.ReferenceIdeal
import proofs.«131860_g61323543053001_cont_9to1c4b_809_4_alg».proof.Proof.RefRun
import proofs.«131860_g61323543053001_cont_9to1c4b_809_4_alg».proof.Proof.RefRead
import Idealize.ShloMosaic.Lib.StableHlo.Run
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.Spec

/-- The reference's run at the ideal instance: the result array is `refSpec` of the launch contents of the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
          = refSpec (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun _ h c => ?_) (run_term (F := Ideal) m ρ)
  exact ⟨(h c).1.trans (refTerm_eq _ _ _ _ _ _ _), (h c).2⟩

end Cert.ReferenceIdeal.RefValue

end
-- ==== Proof.lean ====
/-
  The certificate of a two-stage graph layer: h = adj @ (seq @ W1ᵀ), batch normalisation of h over its 10000 rows
  (batch statistics, epsilon 1e-5, scale gamma, shift beta), tanh, concatenation with seq_self, multiplication by
  W2ᵀ, tanh.

  The kernel computes h as (adj @ seq) @ W1ᵀ in row blocks of 200 and accumulates, block by block, the column sums
  of h and of h²; its second stage takes mean = sum/10000 and var = sumsq/10000 - mean², folds the normalisation into
  one scale and one shift per column (scale = gamma * rsqrt (var + eps), shift = beta - mean * scale), and multiplies
  the two halves of the concatenation by the two halves of W2 separately. On finite inputs all of this is the
  reference's function over the extended reals:
    * the two groupings of the triple product agree because every entry is a real number (finite sums of products
      commute and distribute);
    * mean of squares minus squared mean is the mean of squared deviations, a non-negative real, so var + eps > 0,
      where rsqrt is the reciprocal of sqrt and h * scale + shift = (h - mean) / sqrt (var + eps) * gamma + beta;
    * a sum over 256 columns is the sum over its two halves.
  Spec.lean states both groupings, Algebra.lean proves them equal, KValue.lean reads the kernel program's result
  array as the first, RefValue.lean the reference program's as the second, FiniteInputs.lean reads the precondition.
  The kernel's reciprocal 1/10000 is a named constant: its conjuncts of `preserves` are the name's statement.
-/
import proofs.«131860_g61323543053001_cont_9to1c4b_809_4_alg».proof.Defs
import proofs.«131860_g61323543053001_cont_9to1c4b_809_4_alg».proof.Proof.Gen.Kernel
import proofs.«131860_g61323543053001_cont_9to1c4b_809_4_alg».proof.Proof.Gen.Kernel.Skeleton
import proofs.«131860_g61323543053001_cont_9to1c4b_809_4_alg».proof.Proof.Gen.Kernel.Launch
import proofs.«131860_g61323543053001_cont_9to1c4b_809_4_alg».proof.Proof.Gen.Kernel.Points
import proofs.«131860_g61323543053001_cont_9to1c4b_809_4_alg».proof.Proof.Gen.Kernel.Frame
import proofs.«131860_g61323543053001_cont_9to1c4b_809_4_alg».proof.Proof.Gen.KernelIdeal
import proofs.«131860_g61323543053001_cont_9to1c4b_809_4_alg».proof.Proof.Gen.KernelIdeal.Skeleton
import proofs.«131860_g61323543053001_cont_9to1c4b_809_4_alg».proof.Proof.Gen.KernelIdeal.Launch
import proofs.«131860_g61323543053001_cont_9to1c4b_809_4_alg».proof.Proof.Gen.KernelIdeal.Points
import proofs.«131860_g61323543053001_cont_9to1c4b_809_4_alg».proof.Proof.Gen.KernelIdeal.Frame
import proofs.«131860_g61323543053001_cont_9to1c4b_809_4_alg».proof.Proof.Gen.ReferenceIdeal
import proofs.«131860_g61323543053001_cont_9to1c4b_809_4_alg».proof.Proof.Gen.Pre_finite_inputs
import proofs.«131860_g61323543053001_cont_9to1c4b_809_4_alg».proof.Proof.Spec
import proofs.«131860_g61323543053001_cont_9to1c4b_809_4_alg».proof.Proof.Algebra
import proofs.«131860_g61323543053001_cont_9to1c4b_809_4_alg».proof.Proof.FiniteInputs
import proofs.«131860_g61323543053001_cont_9to1c4b_809_4_alg».proof.Proof.KValue
import proofs.«131860_g61323543053001_cont_9to1c4b_809_4_alg».proof.Proof.RefValue
import Idealize.ShloMosaic.Adequacy
import Idealize.ShloMosaic.Init

noncomputable section

namespace Cert.Proof

open Idealize.ShloMosaic Idealize.SL.Sem

/-- Both kernel programs run, terminate and leave their arguments alone: the generated frame certificates. -/
theorem frame_k : Cert.frame_Kernel := fun m ρ _ => Cert.Kernel.Gen.frame m ρ
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.RefValue.run m ρ)

/-- The two occurrences of the named reciprocal: the table gives "inv_10000" the value 1/10000. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- At the ideal instance the kernel's result is the kernel grouping of the arguments, the reference's the reference
    grouping of arguments that agree, and on finite arguments the two groupings are one function. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6⟩ := hagree c
  rw [e0, e1, e2, e3, e4, e5, e6]
  obtain ⟨f0, f1, f2, f3, f4, f5, f6⟩ := Cert.FiniteInputs.of_pre _ _ _ _ _ _ _ (hpre c)
  exact (Cert.Spec.spec_eq _ _ _ _ _ _ _ f0 f1 f2 f3 f4 f5 f6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
